-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x56x56 : Shape := ⟨4, ![32, 128, 56, 56]⟩
abbrev S256x128x3x3 : Shape := ⟨4, ![256, 128, 3, 3]⟩
abbrev S256 : Shape := ⟨1, ![256]⟩
abbrev S_ : Shape := ⟨0, ![]⟩

class Facts : Prop where
  bcast_S_S32x128x56x56 : S_.BroadcastsInDim S32x128x56x56 (![] : Fin 0 → Fin S32x128x56x56.rank)
  reducesTo_S32x128x56x56_S_d0_1_2_3 : S32x128x56x56.ReducesTo [0, 1, 2, 3] S_
  h_S_ : 0 < S_.numel
  bcast_S_S256x128x3x3 : S_.BroadcastsInDim S256x128x3x3 (![] : Fin 0 → Fin S256x128x3x3.rank)
  reducesTo_S256x128x3x3_S_d0_1_2_3 : S256x128x3x3.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x128x56x56 .f32) (main_arg1 : FVec F S256x128x3x3 .f32) (main_arg2 : FVec F S256 .f32) (main_arg3 : FVec F S256 .f32) : IVec S_ 1 :=
  let main_v0 : FVec F S32x128x56x56 .f32 := Host.absf main_arg0
  let main_cst : FVec F S_ .f32 := constant S_ .f32 0x7F800000#32
  let main_v1 : FVec F S32x128x56x56 .f32 := broadcastInDim S32x128x56x56 ![] bcast_S_S32x128x56x56 main_cst
  let main_v2 : IVec S32x128x56x56 1 := cmpf .olt main_v0 main_v1
  let main_c : IVec S_ 1 := constantI S_ 1 1#1
  let main_v3 : IVec S_ 1 := (fun x v => Host.reduce IntOp.andi x v reducesTo_S32x128x56x56_S_d0_1_2_3 h_S_) main_v2 main_c
  let main_v4 : FVec F S256x128x3x3 .f32 := Host.absf main_arg1
  let main_cst_0 : FVec F S_ .f32 := constant S_ .f32 0x7F800000#32
  let main_v5 : FVec F S256x128x3x3 .f32 := broadcastInDim S256x128x3x3 ![] bcast_S_S256x128x3x3 main_cst_0
  let main_v6 : IVec S256x128x3x3 1 := cmpf .olt main_v4 main_v5
  let main_c_1 : IVec S_ 1 := constantI S_ 1 1#1
  let main_v7 : IVec S_ 1 := (fun x v => Host.reduce IntOp.andi x v reducesTo_S256x128x3x3_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x128x56x56 : Shape := ⟨4, ![32, 128, 56, 56]⟩
abbrev S256x128x3x3 : Shape := ⟨4, ![256, 128, 3, 3]⟩
abbrev S256 : Shape := ⟨1, ![256]⟩
abbrev S32x56x56x128 : Shape := ⟨4, ![32, 56, 56, 128]⟩
abbrev S3x3x128x256 : Shape := ⟨4, ![3, 3, 128, 256]⟩
abbrev S1152x256 : Shape := ⟨2, ![1152, 256]⟩
abbrev S32x3136x256 : Shape := ⟨3, ![32, 3136, 256]⟩
abbrev S32x2x256 : Shape := ⟨3, ![32, 2, 256]⟩
abbrev S1x56x56x128 : Shape := ⟨4, ![1, 56, 56, 128]⟩
abbrev S1x3136x256 : Shape := ⟨3, ![1, 3136, 256]⟩
abbrev S1x2x256 : Shape := ⟨3, ![1, 2, 256]⟩
abbrev S56x56x128 : Shape := ⟨3, ![56, 56, 128]⟩
abbrev S56x1x128 : Shape := ⟨3, ![56, 1, 128]⟩
abbrev S56x58x128 : Shape := ⟨3, ![56, 58, 128]⟩
abbrev S1x58x128 : Shape := ⟨3, ![1, 58, 128]⟩
abbrev S58x58x128 : Shape := ⟨3, ![58, 58, 128]⟩
abbrev S3136x128 : Shape := ⟨2, ![3136, 128]⟩
abbrev S3136x1152 : Shape := ⟨2, ![3136, 1152]⟩
abbrev S3136x256 : Shape := ⟨2, ![3136, 256]⟩
abbrev S1x256 : Shape := ⟨2, ![1, 256]⟩
abbrev S1x1x256 : Shape := ⟨3, ![1, 1, 256]⟩
abbrev S_ : Shape := ⟨0, ![]⟩
abbrev S2x256 : Shape := ⟨2, ![2, 256]⟩
abbrev S32x56x56x256 : Shape := ⟨4, ![32, 56, 56, 256]⟩
abbrev S32x256x56x56 : Shape := ⟨4, ![32, 256, 56, 56]⟩

abbrev nBuf : Space → Nat
  | .hbm => 40
  | .vmem => 13
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S256, .f32⟩
  | .hbm, ⟨4, _⟩ => ⟨S32x56x56x128, .f32⟩
  | .hbm, ⟨5, _⟩ => ⟨S3x3x128x256, .f32⟩
  | .hbm, ⟨6, _⟩ => ⟨S1152x256, .f32⟩
  | .hbm, ⟨7, _⟩ => ⟨S1152x256, .bf16⟩
  | .hbm, ⟨8, _⟩ => ⟨S32x3136x256, .bf16⟩
  | .hbm, ⟨9, _⟩ => ⟨S32x2x256, .f32⟩
  | .hbm, ⟨10, _⟩ => ⟨S_, .f32⟩
  | .hbm, ⟨11, _⟩ => ⟨S2x256, .f32⟩
  | .hbm, ⟨12, _⟩ => ⟨S1x256, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S32x3136x256, .f32⟩
  | .hbm, ⟨38, _⟩ => ⟨S32x56x56x256, .f32⟩
  | .hbm, ⟨39, _⟩ => ⟨S32x256x56x56, .f32⟩
  | .local _ .vmem, ⟨0, _⟩ => ⟨S1x56x56x128, .f32⟩
  | .local _ .vmem, ⟨1, _⟩ => ⟨S1x56x56x128, .f32⟩
  | .local _ .vmem, ⟨2, _⟩ => ⟨S1152x256, .bf16⟩
  | .local _ .vmem, ⟨3, _⟩ => ⟨S1x3136x256, .bf16⟩
  | .local _ .vmem, ⟨4, _⟩ => ⟨S1x3136x256, .bf16⟩
  | .local _ .vmem, ⟨5, _⟩ => ⟨S1x2x256, .f32⟩
  | .local _ .vmem, ⟨6, _⟩ => ⟨S1x2x256, .f32⟩
  | .local _ .vmem, ⟨7, _⟩ => ⟨S1x3136x256, .bf16⟩
  | .local _ .vmem, ⟨8, _⟩ => ⟨S1x3136x256, .bf16⟩
  | .local _ .vmem, ⟨9, _⟩ => ⟨S1x256, .f32⟩
  | .local _ .vmem, ⟨10, _⟩ => ⟨S1x256, .f32⟩
  | .local _ .vmem, ⟨11, _⟩ => ⟨S1x3136x256, .f32⟩
  | .local _ .vmem, ⟨12, _⟩ => ⟨S1x3136x256, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3136x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3136x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x3136x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x128x56x56_S32x56x56x128_0_2_3_1 : S32x128x56x56.Transposes [0, 2, 3, 1] S32x56x56x128
  transposes_S256x128x3x3_S3x3x128x256_2_3_1_0 : S256x128x3x3.Transposes [2, 3, 1, 0] S3x3x128x256
  shapeCasts_S3x3x128x256_S1152x256 : S3x3x128x256.ShapeCasts S1152x256
  bitsLt_bf16_f32 : FTy.bits .bf16 < FTy.bits .f32
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S1x56x56x128_S56x56x128 : S1x56x56x128.ShapeCasts S56x56x128
  concatenates_S56x1x128_S56x56x128_S56x1x128_S56x58x128_d1 : Shape.Concatenates [S56x1x128, S56x56x128, S56x1x128] S56x58x128 1
  concatenates_S1x58x128_S56x58x128_S1x58x128_S58x58x128_d0 : Shape.Concatenates [S1x58x128, S56x58x128, S1x58x128] S58x58x128 0
  slices_S58x58x128_o0_0_0_S56x56x128 : S58x58x128.Slices ![0, 0, 0] S56x56x128
  shapeCasts_S56x56x128_S3136x128 : S56x56x128.ShapeCasts S3136x128
  slices_S58x58x128_o0_1_0_S56x56x128 : S58x58x128.Slices ![0, 1, 0] S56x56x128
  slices_S58x58x128_o0_2_0_S56x56x128 : S58x58x128.Slices ![0, 2, 0] S56x56x128
  slices_S58x58x128_o1_0_0_S56x56x128 : S58x58x128.Slices ![1, 0, 0] S56x56x128
  slices_S58x58x128_o1_1_0_S56x56x128 : S58x58x128.Slices ![1, 1, 0] S56x56x128
  slices_S58x58x128_o1_2_0_S56x56x128 : S58x58x128.Slices ![1, 2, 0] S56x56x128
  slices_S58x58x128_o2_0_0_S56x56x128 : S58x58x128.Slices ![2, 0, 0] S56x56x128
  slices_S58x58x128_o2_1_0_S56x56x128 : S58x58x128.Slices ![2, 1, 0] S56x56x128
  slices_S58x58x128_o2_2_0_S56x56x128 : S58x58x128.Slices ![2, 2, 0] S56x56x128
  concatenates_S3136x128_S3136x128_S3136x128_S3136x128_S3136x128_S3136x128_S3136x128_S3136x128_S3136x128_S3136x1152_d1 : Shape.Concatenates [S3136x128, S3136x128, S3136x128, S3136x128, S3136x128, S3136x128, S3136x128, S3136x128, S3136x128] S3136x1152 1
  inb_S1152x256_S1152x256_0_0 : ∀ a, (![0, 0] : Fin 2 → Nat) a + S1152x256.size a ≤ S1152x256.size a
  h_S1152x256 : 0 < S1152x256.numel
  shapeCasts_S1152x256_S1152x256 : S1152x256.ShapeCasts S1152x256
  inb_S1x3136x256_S1x3136x256_0_0_0 : ∀ a, (![0, 0, 0] : Fin 3 → Nat) a + S1x3136x256.size a ≤ S1x3136x256.size a
  h_S1x3136x256 : 0 < S1x3136x256.numel
  shapeCasts_S1x3136x256_S3136x256 : S1x3136x256.ShapeCasts S3136x256
  shapeCasts_S3136x256_S1x3136x256 : S3136x256.ShapeCasts S1x3136x256
  packedbf16_S1x3136x256_S1x3136x256_0_0_0 : (Rect.unit (s := S1x3136x256) ![0, 0, 0] S1x3136x256.size inb_S1x3136x256_S1x3136x256_0_0_0).PackedRows (EltTy.packing .bf16)
  reduces_S3136x256_S256 : S3136x256.Reduces [0] S256
  shapeCasts_S256_S1x256 : S256.ShapeCasts S1x256
  inb_S1x2x256_S1x1x256_0_0_0 : ∀ a, (![0, 0, 0] : Fin 3 → Nat) a + S1x1x256.size a ≤ S1x2x256.size a
  h_S1x1x256 : 0 < S1x1x256.numel
  shapeCasts_S1x1x256_S1x256 : S1x1x256.ShapeCasts S1x256
  shapeCasts_S1x256_S1x1x256 : S1x256.ShapeCasts S1x1x256
  inb_S1x2x256_S1x1x256_0_1_0 : ∀ a, (![0, 1, 0] : Fin 3 → Nat) a + S1x1x256.size a ≤ S1x2x256.size a
  reducesTo_S32x2x256_S2x256_d0 : S32x2x256.ReducesTo [0] S2x256
  h_S_ : 0 < S_.numel
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3136x256 : S1x256.Broadcasts S3136x256
  shapeCasts_S32x3136x256_S32x56x56x256 : S32x3136x256.ShapeCasts S32x56x56x256
  transposes_S32x56x56x256_S32x256x56x56_0_3_1_2 : S32x56x56x256.Transposes [0, 3, 1, 2] S32x256x56x56
  dot_S3136x1152_S1152x256_S3136x256_1_0_0_1_n_n_wf : DotDims.WF S3136x1152 S1152x256 S3136x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x56x128.size a ≤ S32x56x56x128.size a
  hwx0_0 : ∀ i : grid0.Coords, EltTy.bits .f32 = 32 ∨ (Rect.block (s := S32x56x56x128) S1x56x56x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x256.size a ≤ S1152x256.size a
  hwx0_1 : ∀ i : grid0.Coords, EltTy.bits .bf16 = 32 ∨ (Rect.block (s := S1152x256) S1152x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3136x256.size a ≤ S32x3136x256.size a
  hwx0_2 : ∀ i : grid0.Coords, EltTy.bits .bf16 = 32 ∨ (Rect.block (s := S32x3136x256) S1x3136x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S32x2x256.size a
  hwx0_3 : ∀ i : grid0.Coords, EltTy.bits .f32 = 32 ∨ (Rect.block (s := S32x2x256) S1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3136x256.size a ≤ S32x3136x256.size a
  hwx1_0 : ∀ i : grid1.Coords, EltTy.bits .bf16 = 32 ∨ (Rect.block (s := S32x3136x256) S1x3136x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x3136x256.size a ≤ S32x3136x256.size a
  hwx1_3 : ∀ i : grid1.Coords, EltTy.bits .f32 = 32 ∨ (Rect.block (s := S32x3136x256) S1x3136x256.size (cc1_transform_3 i) (hinb1_3 i)).WholeWords (EltTy.packing .f32)

variable [Facts₀]

def dot_S3136x1152_S1152x256_S3136x256_1_0_0_1_n_n : DotDims S3136x1152 S1152x256 S3136x256 where
  lhsContracting := [1]
  rhsContracting := [0]
  lhsNonContracting := [0]
  rhsNonContracting := [1]
  lhsBatch := []
  rhsBatch := []
  wf := dot_S3136x1152_S1152x256_S3136x256_1_0_0_1_n_n_wf

abbrev win0_0 : Pipeline.Window sig grid0 :=
  Pipeline.Window.ofSpec (Memref.whole main_v0) S1x56x56x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1152x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x3136x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4_0) S1x3136x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x3136x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x128x56x56 : Shape := ⟨4, ![32, 128, 56, 56]⟩
abbrev S256x128x3x3 : Shape := ⟨4, ![256, 128, 3, 3]⟩
abbrev S256 : Shape := ⟨1, ![256]⟩
abbrev S32x56x56x128 : Shape := ⟨4, ![32, 56, 56, 128]⟩
abbrev S_ : Shape := ⟨0, ![]⟩
abbrev S32x58x58x128 : Shape := ⟨4, ![32, 58, 58, 128]⟩
abbrev S3x3x128x256 : Shape := ⟨4, ![3, 3, 128, 256]⟩
abbrev S9x128x256 : Shape := ⟨3, ![9, 128, 256]⟩
abbrev S100352x256 : Shape := ⟨2, ![100352, 256]⟩
abbrev S32x2x256 : Shape := ⟨3, ![32, 2, 256]⟩
abbrev S1x58x58x128 : Shape := ⟨4, ![1, 58, 58, 128]⟩
abbrev S3136x256 : Shape := ⟨2, ![3136, 256]⟩
abbrev S1x2x256 : Shape := ⟨3, ![1, 2, 256]⟩
abbrev S1x56x56x128 : Shape := ⟨4, ![1, 56, 56, 128]⟩
abbrev S56x56x128 : Shape := ⟨3, ![56, 56, 128]⟩
abbrev S3136x128 : Shape := ⟨2, ![3136, 128]⟩
abbrev S1x128x256 : Shape := ⟨3, ![1, 128, 256]⟩
abbrev S128x256 : Shape := ⟨2, ![128, 256]⟩
abbrev S1x256 : Shape := ⟨2, ![1, 256]⟩
abbrev S1x1x256 : Shape := ⟨3, ![1, 1, 256]⟩
abbrev S2x256 : Shape := ⟨2, ![2, 256]⟩
abbrev S1024x256 : Shape := ⟨2, ![1024, 256]⟩
abbrev S32x3136x256 : Shape := ⟨3, ![32, 3136, 256]⟩
abbrev S32x56x56x256 : Shape := ⟨4, ![32, 56, 56, 256]⟩
abbrev S32x256x56x56 : Shape := ⟨4, ![32, 256, 56, 56]⟩

abbrev nBuf : Space → Nat
  | .hbm => 52
  | .vmem => 13
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S256, .f32⟩
  | .hbm, ⟨4, _⟩ => ⟨S32x56x56x128, .f32⟩
  | .hbm, ⟨5, _⟩ => ⟨S_, .i32⟩
  | .hbm, ⟨6, _⟩ => ⟨S_, .f32⟩
  | .hbm, ⟨7, _⟩ => ⟨S32x58x58x128, .f32⟩
  | .hbm, ⟨8, _⟩ => ⟨S3x3x128x256, .f32⟩
  | .hbm, ⟨9, _⟩ => ⟨S9x128x256, .f32⟩
  | .hbm, ⟨10, _⟩ => ⟨S_, .i32⟩
  | .hbm, ⟨11, _⟩ => ⟨S_, .f32⟩
  | .hbm, ⟨12, _⟩ => ⟨S9x128x256, .f32⟩
  | .hbm, ⟨13, _⟩ => ⟨S_, .f32⟩
  | .hbm, ⟨14, _⟩ => ⟨S_, .f32⟩
  | .hbm, ⟨15, _⟩ => ⟨S256, .f32⟩
  | .hbm, ⟨16, _⟩ => ⟨S_, .i32⟩
  | .hbm, ⟨17, _⟩ => ⟨S_, .f32⟩
  | .hbm, ⟨18, _⟩ => ⟨S256, .f32⟩
  | .hbm, ⟨19, _⟩ => ⟨S100352x256, .f32⟩
  | .hbm, ⟨20, _⟩ => ⟨S32x2x256, .f32⟩
  | .hbm, ⟨21, _⟩ => ⟨S_, .f32⟩
  | .hbm, ⟨22, _⟩ => ⟨S2x256, .f32⟩
  | .hbm, ⟨23, _⟩ => ⟨S1x256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S1x256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S100352x256, .f32⟩
  | .hbm, ⟨49, _⟩ => ⟨S32x3136x256, .f32⟩
  | .hbm, ⟨50, _⟩ => ⟨S32x56x56x256, .f32⟩
  | .hbm, ⟨51, _⟩ => ⟨S32x256x56x56, .f32⟩
  | .local _ .vmem, ⟨0, _⟩ => ⟨S1x58x58x128, .f32⟩
  | .local _ .vmem, ⟨1, _⟩ => ⟨S1x58x58x128, .f32⟩
  | .local _ .vmem, ⟨2, _⟩ => ⟨S9x128x256, .f32⟩
  | .local _ .vmem, ⟨3, _⟩ => ⟨S3136x256, .f32⟩
  | .local _ .vmem, ⟨4, _⟩ => ⟨S3136x256, .f32⟩
  | .local _ .vmem, ⟨5, _⟩ => ⟨S1x2x256, .f32⟩
  | .local _ .vmem, ⟨6, _⟩ => ⟨S1x2x256, .f32⟩
  | .local _ .vmem, ⟨7, _⟩ => ⟨S1024x256, .f32⟩
  | .local _ .vmem, ⟨8, _⟩ => ⟨S1024x256, .f32⟩
  | .local _ .vmem, ⟨9, _⟩ => ⟨S1x256, .f32⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_cst : Ref sig .tc := ⟨.hbm, 13, rfl⟩
abbrev main_call2_v0 : Ref sig .tc := ⟨.hbm, 14, rfl⟩
abbrev main_v5 : Ref sig .tc := ⟨.hbm, 15, rfl⟩
abbrev main_c_1 : Ref sig .tc := ⟨.hbm, 16, rfl⟩
abbrev main_call3_v0 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x58x58x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3136x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x128x56x56_S32x56x56x128_0_2_3_1 : S32x128x56x56.Transposes [0, 2, 3, 1] S32x56x56x128
  pads_S32x56x56x128_S32x58x58x128_000_110_110_000 : S32x56x56x128.Pads (![0, 1, 1, 0] : Fin 4 → Nat) ![0, 1, 1, 0] ![0, 0, 0, 0] S32x58x58x128
  h_S_ : 0 < S_.numel
  transposes_S256x128x3x3_S3x3x128x256_2_3_1_0 : S256x128x3x3.Transposes [2, 3, 1, 0] S3x3x128x256
  shapeCasts_S3x3x128x256_S9x128x256 : S3x3x128x256.ShapeCasts S9x128x256
  pads_S9x128x256_S9x128x256_000_000_000 : S9x128x256.Pads (![0, 0, 0] : Fin 3 → Nat) ![0, 0, 0] ![0, 0, 0] S9x128x256
  pads_S256_S256_000 : S256.Pads (![0] : Fin 1 → Nat) ![0] ![0] S256
  inb_S1x58x58x128_S1x56x56x128_0_0_0_0 : ∀ a, (![0, 0, 0, 0] : Fin 4 → Nat) a + S1x56x56x128.size a ≤ S1x58x58x128.size a
  h_S1x56x56x128 : 0 < S1x56x56x128.numel
  shapeCasts_S1x56x56x128_S56x56x128 : S1x56x56x128.ShapeCasts S56x56x128
  shapeCasts_S56x56x128_S3136x128 : S56x56x128.ShapeCasts S3136x128
  inb_S9x128x256_S1x128x256_0_0_0 : ∀ a, (![0, 0, 0] : Fin 3 → Nat) a + S1x128x256.size a ≤ S9x128x256.size a
  h_S1x128x256 : 0 < S1x128x256.numel
  shapeCasts_S1x128x256_S128x256 : S1x128x256.ShapeCasts S128x256
  inb_S1x58x58x128_S1x56x56x128_0_0_1_0 : ∀ a, (![0, 0, 1, 0] : Fin 4 → Nat) a + S1x56x56x128.size a ≤ S1x58x58x128.size a
  inb_S9x128x256_S1x128x256_1_0_0 : ∀ a, (![1, 0, 0] : Fin 3 → Nat) a + S1x128x256.size a ≤ S9x128x256.size a
  inb_S1x58x58x128_S1x56x56x128_0_0_2_0 : ∀ a, (![0, 0, 2, 0] : Fin 4 → Nat) a + S1x56x56x128.size a ≤ S1x58x58x128.size a
  inb_S9x128x256_S1x128x256_2_0_0 : ∀ a, (![2, 0, 0] : Fin 3 → Nat) a + S1x128x256.size a ≤ S9x128x256.size a
  inb_S1x58x58x128_S1x56x56x128_0_1_0_0 : ∀ a, (![0, 1, 0, 0] : Fin 4 → Nat) a + S1x56x56x128.size a ≤ S1x58x58x128.size a
  inb_S9x128x256_S1x128x256_3_0_0 : ∀ a, (![3, 0, 0] : Fin 3 → Nat) a + S1x128x256.size a ≤ S9x128x256.size a
  inb_S1x58x58x128_S1x56x56x128_0_1_1_0 : ∀ a, (![0, 1, 1, 0] : Fin 4 → Nat) a + S1x56x56x128.size a ≤ S1x58x58x128.size a
  inb_S9x128x256_S1x128x256_4_0_0 : ∀ a, (![4, 0, 0] : Fin 3 → Nat) a + S1x128x256.size a ≤ S9x128x256.size a
  inb_S1x58x58x128_S1x56x56x128_0_1_2_0 : ∀ a, (![0, 1, 2, 0] : Fin 4 → Nat) a + S1x56x56x128.size a ≤ S1x58x58x128.size a
  inb_S9x128x256_S1x128x256_5_0_0 : ∀ a, (![5, 0, 0] : Fin 3 → Nat) a + S1x128x256.size a ≤ S9x128x256.size a
  inb_S1x58x58x128_S1x56x56x128_0_2_0_0 : ∀ a, (![0, 2, 0, 0] : Fin 4 → Nat) a + S1x56x56x128.size a ≤ S1x58x58x128.size a
  inb_S9x128x256_S1x128x256_6_0_0 : ∀ a, (![6, 0, 0] : Fin 3 → Nat) a + S1x128x256.size a ≤ S9x128x256.size a
  inb_S1x58x58x128_S1x56x56x128_0_2_1_0 : ∀ a, (![0, 2, 1, 0] : Fin 4 → Nat) a + S1x56x56x128.size a ≤ S1x58x58x128.size a
  inb_S9x128x256_S1x128x256_7_0_0 : ∀ a, (![7, 0, 0] : Fin 3 → Nat) a + S1x128x256.size a ≤ S9x128x256.size a
  inb_S1x58x58x128_S1x56x56x128_0_2_2_0 : ∀ a, (![0, 2, 2, 0] : Fin 4 → Nat) a + S1x56x56x128.size a ≤ S1x58x58x128.size a
  inb_S9x128x256_S1x128x256_8_0_0 : ∀ a, (![8, 0, 0] : Fin 3 → Nat) a + S1x128x256.size a ≤ S9x128x256.size a
  inb_S3136x256_S3136x256_0_0 : ∀ a, (![0, 0] : Fin 2 → Nat) a + S3136x256.size a ≤ S3136x256.size a
  h_S3136x256 : 0 < S3136x256.numel
  reduces_S3136x256_S256 : S3136x256.Reduces [0] S256
  shapeCasts_S256_S1x256 : S256.ShapeCasts S1x256
  inb_S1x2x256_S1x1x256_0_0_0 : ∀ a, (![0, 0, 0] : Fin 3 → Nat) a + S1x1x256.size a ≤ S1x2x256.size a
  h_S1x1x256 : 0 < S1x1x256.numel
  shapeCasts_S1x1x256_S1x256 : S1x1x256.ShapeCasts S1x256
  shapeCasts_S1x256_S1x1x256 : S1x256.ShapeCasts S1x1x256
  inb_S1x2x256_S1x1x256_0_1_0 : ∀ a, (![0, 1, 0] : Fin 3 → Nat) a + S1x1x256.size a ≤ S1x2x256.size a
  reducesTo_S32x2x256_S2x256_d0 : S32x2x256.ReducesTo [0] S2x256
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S100352x256_S32x3136x256 : S100352x256.ShapeCasts S32x3136x256
  shapeCasts_S32x3136x256_S32x56x56x256 : S32x3136x256.ShapeCasts S32x56x56x256
  transposes_S32x56x56x256_S32x256x56x56_0_3_1_2 : S32x56x56x256.Transposes [0, 3, 1, 2] S32x256x56x56
  dot_S3136x128_S128x256_S3136x256_1_0_0_1_n_n_wf : DotDims.WF S3136x128 S128x256 S3136x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x128.size a ≤ S32x58x58x128.size a
  hwx0_0 : ∀ i : grid0.Coords, EltTy.bits .f32 = 32 ∨ (Rect.block (s := S32x58x58x128) S1x58x58x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x256.size a ≤ S9x128x256.size a
  hwx0_1 : ∀ i : grid0.Coords, EltTy.bits .f32 = 32 ∨ (Rect.block (s := S9x128x256) S9x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3136x256.size a ≤ S100352x256.size a
  hwx0_2 : ∀ i : grid0.Coords, EltTy.bits .f32 = 32 ∨ (Rect.block (s := S100352x256) S3136x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S32x2x256.size a
  hwx0_3 : ∀ i : grid0.Coords, EltTy.bits .f32 = 32 ∨ (Rect.block (s := S32x2x256) S1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S100352x256.size a
  hwx1_0 : ∀ i : grid1.Coords, EltTy.bits .f32 = 32 ∨ (Rect.block (s := S100352x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S100352x256.size a
  hwx1_3 : ∀ i : grid1.Coords, EltTy.bits .f32 = 32 ∨ (Rect.block (s := S100352x256) S1024x256.size (cc1_transform_3 i) (hinb1_3 i)).WholeWords (EltTy.packing .f32)

variable [Facts₀]

def dot_S3136x128_S128x256_S3136x256_1_0_0_1_n_n : DotDims S3136x128 S128x256 S3136x256 where
  lhsContracting := [1]
  rhsContracting := [0]
  lhsNonContracting := [0]
  rhsNonContracting := [1]
  lhsBatch := []
  rhsBatch := []
  wf := dot_S3136x128_S128x256_S3136x256_1_0_0_1_n_n_wf

abbrev win0_0 : Pipeline.Window sig grid0 :=
  Pipeline.Window.ofSpec (Memref.whole main_v1) S1x58x58x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S9x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S3136x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The mathematics both programs compute, stated once over the extended reals.

  A 3×3 convolution with stride 1 and zero padding 1 over a channel-minor activation X[b, h, w, ci]
  (32 × 56 × 56 × 128) with weights W[i, j, ci, co] (3 × 3 × 128 × 256): at output pixel r = h·56 + w of image b
  and output channel co, the accumulator is the sum over the nine taps (i, j) of
      ∑ ci, Xpad[b, h + i, w + j, ci] · W[i, j, ci, co],
  where Xpad is X framed by one ring of zeros. Then a per-channel affine map and the hard-swish
      z ↦ z · min(6, max(0, z + 3)) · (1/6)  (the three literals kept as their binary words).
-/
import Idealize.ShloMosaic.Lib.ValueIdx
import Idealize.ShloMosaic.PureOps.Ideal

noncomputable section

namespace Cert.Spec

open Idealize.ShloMosaic Idealize.ShloMosaic.ValueIdx

/-- The activation, channel-minor: (image, row, column, input channel). -/
abbrev SX : Shape := ⟨4, ![32, 56, 56, 128]⟩
/-- The weights: (tap row, tap column, input channel, output channel). -/
abbrev SW : Shape := ⟨4, ![3, 3, 128, 256]⟩

/-- The activation framed by one ring of zeros, at padded coordinates (hh, ww) with 0 ≤ hh, ww < 58: inside the
    frame it is X one row up and one column left, on the frame it is zero. -/
def xpad (X : SX.Idx → EReal) (b : Fin 32) (hh ww : ℕ) (ci : Fin 128) : EReal :=
  if h : (1 ≤ hh ∧ hh ≤ 56) ∧ (1 ≤ ww ∧ ww ≤ 56) then X (ix4 b ⟨hh - 1, by omega⟩ ⟨ww - 1, by omega⟩ ci) else 0

/-- One tap's share of the accumulator at pixel r of image b and output channel co: the sum over the input
    channels of the framed activation, shifted by the tap, times the tap's weight. -/
def tap (X : SX.Idx → EReal) (W : SW.Idx → EReal) (b : Fin 32) (r : Fin 3136) (co : Fin 256) (i j : Fin 3) : EReal :=
  ∑ ci : Fin 128, xpad X b (r.val / 56 + i.val) (r.val % 56 + j.val) ci * W (ix4 i j ci co)

/-- The accumulator: the nine taps in row-major order, added from the left. -/
def conv (X : SX.Idx → EReal) (W : SW.Idx → EReal) (b : Fin 32) (r : Fin 3136) (co : Fin 256) : EReal :=
  tap X W b r co 0 0 + tap X W b r co 0 1 + tap X W b r co 0 2
    + tap X W b r co 1 0 + tap X W b r co 1 1 + tap X W b r co 1 2
    + tap X W b r co 2 0 + tap X W b r co 2 1 + tap X W b r co 2 2

/-- The affine map z = y · scale + shift followed by the hard-swish z · min(6, max(0, z + 3)) · (1/6), the
    literals 3, 0, 6 and the rounded 1/6 as the words both programs carry. -/
def bnhsw (y sc sh : EReal) : EReal :=
  (y * sc + sh)
    * min (Ideal.ofBits .f32 0x40C00000#32) (max (Ideal.ofBits .f32 0x00000000#32) ((y * sc + sh) + Ideal.ofBits .f32 0x40400000#32))
    * Ideal.ofBits .f32 0x3E2AAAAB#32

end Cert.Spec

end
-- ==== Proof.Spec2.lean ====
/-
  The two whole-array functions the bridge is stated over: the per-image statistics of the convolution, and the
  result array in (image, output channel, row, column) order as a function of the convolution and of the two
  per-channel rows (scale and shift) the programs fold the statistics into.
-/
import proofs.«172489_g2000705972228531_pallasbulk_146_4_alg».proof.Proof.Spec

noncomputable section

namespace Cert.Spec

open Idealize.ShloMosaic Idealize.ShloMosaic.ValueIdx

/-- The statistics: for image b and output channel co, row 0 is the sum of the accumulator over the image's 3136
    pixels, row 1 the sum of its squares. -/
def stats (X : SX.Idx → EReal) (W : SW.Idx → EReal) : (⟨3, ![32, 2, 256]⟩ : Shape).Idx → EReal := fun i =>
  if (i 1).val = 0 then ∑ r : Fin 3136, conv X W (i 0) r (i 2)
  else ∑ r : Fin 3136, conv X W (i 0) r (i 2) * conv X W (i 0) r (i 2)

/-- The pixel h·56 + w of an image. -/
def pix (h w : Fin 56) : Fin 3136 := ⟨h.val * 56 + w.val, by have := h.isLt; have := w.isLt; omega⟩

/-- The result: at (image b, output channel co, row h, column w) the hard-swish of the accumulator at pixel
    h·56 + w, scaled and shifted by channel co's entries of the two rows. -/
def result (X : SX.Idx → EReal) (W : SW.Idx → EReal) (sc sh : (⟨2, ![1, 256]⟩ : Shape).Idx → EReal) :
    (⟨4, ![32, 256, 56, 56]⟩ : Shape).Idx → EReal := fun j =>
  bnhsw (conv X W (j 0) (pix (j 2) (j 3)) (j 1)) (sc (ix2 0 (j 1))) (sh (ix2 0 (j 1)))

end Cert.Spec

end
-- ==== Proof.KHost.lean ====
import proofs.«172489_g2000705972228531_pallasbulk_146_4_alg».proof.Proof.Gen.KernelIdeal.Frame
import proofs.«172489_g2000705972228531_pallasbulk_146_4_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host

open Idealize.ShloMosaic Idealize.ShloMosaic.ValueIdx Idealize.ShloMosaic.TcCoe Idealize.SL.Sem
open Cert.KernelIdeal Cert.KernelIdeal.Gen

open Idealize.ShloMosaic.StableHlo

/- The host operations of the program, stretch by stretch, read as functions of the arrays each stretch is
   entered from: the two transposes and the weight matrix before the first launch; the fold of the statistics into
   the scale and shift rows between the launches; the re-layout of the output after the second. -/

/-- The activation made channel-minor: (image, row, column, channel). -/
def xT (a0 : FVec Ideal S32x128x56x56 .f32) : FVec Ideal S32x56x56x128 .f32 :=
  transpose S32x56x56x128 [0, 2, 3, 1] a0 transposes_S32x128x56x56_S32x56x56x128_0_2_3_1

/-- The weights as (tap row, tap column, input channel, output channel). -/
def wT (a1 : FVec Ideal S256x128x3x3 .f32) : FVec Ideal S3x3x128x256 .f32 :=
  transpose S3x3x128x256 [2, 3, 1, 0] a1 transposes_S256x128x3x3_S3x3x128x256_2_3_1_0

/-! ## The fold of the statistics into the per-channel scale and shift rows -/

/-- The per-channel mean: the statistics' row 0 summed over the images, times the rounded reciprocal of the number
    of pixels. -/
def mean (S : FVec Ideal S32x2x256 .f32) : FVec Ideal S256 .f32 :=
  mulf (shapeCast S256 (extractStridedSlice S1x256 ![0, 0] (Host.reduceAdd S (constant S_ .f32 0x00000000#32) reducesTo_S32x2x256_S2x256_d0 h_S_) slices_S2x256_S1x256_0_0) shapeCasts_S1x256_S256)
    (broadcastInDim S256 ![] bcast_S_S256 (constant S_ .f32 0x37272F05#32))

/-- The per-channel mean of squares, likewise from row 1. -/
def meanSq (S : FVec Ideal S32x2x256 .f32) : FVec Ideal S256 .f32 :=
  mulf (shapeCast S256 (extractStridedSlice S1x256 ![1, 0] (Host.reduceAdd S (constant S_ .f32 0x00000000#32) reducesTo_S32x2x256_S2x256_d0 h_S_) slices_S2x256_S1x256_1_0) shapeCasts_S1x256_S256)
    (broadcastInDim S256 ![] bcast_S_S256 (constant S_ .f32 0x37272F05#32))

/-- The reciprocal standard deviation: rsqrt (max (E[y²] − E[y]², 0) + ε). -/
def invStd (S : FVec Ideal S32x2x256 .f32) : FVec Ideal S256 .f32 :=
  Host.rsqrt (addf (maximumf (subf (meanSq S) (mulf (mean S) (mean S))) (broadcastInDim S256 ![] bcast_S_S256 (constant S_ .f32 0x00000000#32)))
    (broadcastInDim S256 ![] bcast_S_S256 (constant S_ .f32 0x3727C5AC#32)))

/-- The scale row: γ · invStd. -/
def foldScale (S : FVec Ideal S32x2x256 .f32) (g : FVec Ideal S256 .f32) : FVec Ideal S1x256 .f32 :=
  shapeCast S1x256 (mulf g (invStd S)) shapeCasts_S256_S1x256

/-- The shift row: β − mean · γ · invStd. -/
def foldShift (S : FVec Ideal S32x2x256 .f32) (g be : FVec Ideal S256 .f32) : FVec Ideal S1x256 .f32 :=
  shapeCast S1x256 (subf be (mulf (mulf (mean S) g) (invStd S))) shapeCasts_S256_S1x256

variable (m : (ℓ : Loc nD τ sig) → Buf (Elt Ideal) ℓ) (ρ : Dev nD → PrngReg)

/-! ## Before the first launch -/

theorem v0_eq (c : Dev nD) : V1 m ρ c main_v0 = xT (m ((c : Thread nD τ).loc main_arg0)) := by
  show StableHlo.after hostOps0 (W0 m ρ c) (Proc.devRef .tc main_v0) = _
  simp only [hostOps0]
  after_results
  rfl

theorem v3_eq (c : Dev nD) : V1 m ρ c main_v3
    = truncf .bf16 (shapeCast S1152x256 (wT (m ((c : Thread nD τ).loc main_arg1))) shapeCasts_S3x3x128x256_S1152x256) bitsLt_bf16_f32 := by
  show StableHlo.after hostOps0 (W0 m ρ c) (Proc.devRef .tc main_v3) = _
  simp only [hostOps0]
  after_results
  rfl

/-- The weight matrix's row (3·i + j)·128 + ci is tap (i, j)'s input channel ci: the matrix is the 4-axis weight
    array read in row-major order. -/
theorem v3_apply (c : Dev nD) (i j : Fin 3) (ci : Fin 128) (co : Fin 256) :
    V1 m ρ c main_v3 (ix2 ⟨(i.val * 3 + j.val) * 128 + ci.val, by have := i.isLt; have := j.isLt; have := ci.isLt; omega⟩ co)
      = wT (m ((c : Thread nD τ).loc main_arg1)) (ix4 i j ci co) := by
  rw [v3_eq]
  show shapeCast S1152x256 (wT (m ((c : Thread nD τ).loc main_arg1))) shapeCasts_S3x3x128x256_S1152x256
      (ix2 ⟨(i.val * 3 + j.val) * 128 + ci.val, _⟩ co) = _
  refine shapeCast_apply _ _ _ (ix4 i j ci co) ?_
  rw [Shape.rowMajor_val_four, Shape.rowMajor_val_two]
  rfl

/-! ## Between the launches -/

theorem arg2_at2 (c : Dev nD) : V2 m ρ c main_arg2 = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by
          show StableHlo.after hostOps0 (W0 m ρ c) (Proc.devRef .tc main_arg2) = _
          simp only [hostOps0]
          after_results
    _ = m ((c : Thread nD τ).loc main_arg2) := rfl

theorem arg3_at2 (c : Dev nD) : V2 m ρ c main_arg3 = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by
          show StableHlo.after hostOps0 (W0 m ρ c) (Proc.devRef .tc main_arg3) = _
          simp only [hostOps0]
          after_results
    _ = m ((c : Thread nD τ).loc main_arg3) := rfl

set_option maxHeartbeats 1000000 in
theorem v22_eq (c : Dev nD) : V3 m ρ c main_v22 = foldScale (V2 m ρ c main_v4_1) (V2 m ρ c main_arg2) := by
  show StableHlo.after hostOps1 (W2 m ρ c) (Proc.devRef .tc main_v22) = _
  simp only [hostOps1]
  after_results_simp
  rfl

set_option maxHeartbeats 1000000 in
theorem v26_eq (c : Dev nD) : V3 m ρ c main_v26 = foldShift (V2 m ρ c main_v4_1) (V2 m ρ c main_arg2) (V2 m ρ c main_arg3) := by
  show StableHlo.after hostOps1 (W2 m ρ c) (Proc.devRef .tc main_v26) = _
  simp only [hostOps1]
  after_results_simp
  rfl

set_option maxHeartbeats 1000000 in
theorem v4_0_kept (c : Dev nD) : V3 m ρ c main_v4_0 = V2 m ρ c main_v4_0 := by
  show StableHlo.after hostOps1 (W2 m ρ c) (Proc.devRef .tc main_v4_0) = _
  simp only [hostOps1]
  after_results_simp

/-! ## After the second launch -/

theorem v29_eq (c : Dev nD) : W5 m ρ c (Proc.devRef .tc main_v29)
    = transpose S32x256x56x56 [0, 3, 1, 2] (shapeCast S32x56x56x256 (V4 m ρ c main_v27) shapeCasts_S32x3136x256_S32x56x56x256)
        transposes_S32x56x56x256_S32x256x56x56_0_3_1_2 := by
  show StableHlo.after hostOps2 (W4 m ρ c) (Proc.devRef .tc main_v29) = _
  simp only [hostOps2]
  after_results
  rfl

end Cert.KernelIdeal.Host

end
-- ==== Proof.KRegion0.lean ====
import proofs.«172489_g2000705972228531_pallasbulk_146_4_alg».proof.Proof.Gen.KernelIdeal.Frame
import proofs.«172489_g2000705972228531_pallasbulk_146_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.ValueIdx Idealize.ShloMosaic.TcCoe Idealize.SL.Sem
open Cert.KernelIdeal Cert.KernelIdeal.Gen

/- The first launch, one grid point per image b: the point loads image b's block of the activation array and the
   whole weight matrix, and writes back the accumulator (as block b of the pre-normalisation array) and the
   accumulator's two column sums (as block b of the statistics array). Stated at the contents V the launch is
   entered from. -/

variable (V : (c : Dev nD) → (b : Ref sig .tc) → Buf (Elt Ideal) ((c : Thread nD τ).loc b))

/-- Image b's block of the activation array. -/
def xblk (c : Dev nD) (b : Fin 32) : Vec Ideal S1x56x56x128 .f32 := fun y => V c main_v0 (ix4 b (y 1) (y 2) (y 3))

/-- The accumulator of image b: the body's matrix product of the image's nine shifted windows, laid side by side,
    with the weight matrix. -/
def acc (c : Dev nD) (b : Fin 32) : FVec Ideal S3136x256 .f32 := k0_pay2 (xblk V c b) (V c main_v3)

/-! ## The grid and the windows' blocks -/

/-- A whole-buffer access starts at offset zero on every axis. -/
private theorem zero4 : (![0, 0, 0, 0] : Fin 4 → Nat) = fun _ => 0 := funext fun a => by fin_cases a <;> rfl
private theorem zero3 : (![0, 0, 0] : Fin 3 → Nat) = fun _ => 0 := funext fun a => by fin_cases a <;> rfl
private theorem zero2 : (![0, 0] : Fin 2 → Nat) = fun _ => 0 := funext fun a => by fin_cases a <;> rfl

/-- The index maps over the grid: at point t the activation's, the pre-normalisation array's and the statistics
    array's block index is t on the image axis and zero elsewhere; the weight matrix's block index is zero. -/
private theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The pre-normalisation window -/

/-- The first store's payload at an index: the change of format is the identity over the extended reals and the
    added unit axis is dropped, which leaves the accumulator's entry. -/
private theorem pay3_apply (x0 : Vec Ideal S1x56x56x128 .f32) (x1 : Vec Ideal S1152x256 .bf16) (j : S1x3136x256.Idx) :
    k0_pay3 x0 x1 j = k0_pay2 x0 x1 (ix2 (j 1) (j 2)) := by
  unfold k0_pay3
  refine (shapeCast_addUnit_apply ![3136, 256] _ _ j).trans ?_
  show k0_pay2 x0 x1 (fun a => j a.succ) = _
  exact congrArg _ (funext fun a => match a with | ⟨0, _⟩ => rfl | ⟨1, _⟩ => rfl)

/-- The activation window's block at point t is image t of the activation array. -/
private theorem iblk_x (c : Dev nD) (t : Fin cfg0.N) :
    (iblk0 V c 0 t : Vec Ideal S1x56x56x128 .f32) = xblk V c ⟨t.val, t.isLt⟩ := by
  obtain ⟨e0, e1, e2, e3, -⟩ := index_facts t
  funext y
  unfold iblk0 xblk
  rw [View.read_apply]
  show V c main_v0 _ = V c main_v0 _
  congr 1
  funext a; apply Fin.ext
  have h0 : (y 0).val < 1 := (y 0).isLt
  match a with
  | ⟨0, _⟩ => show win0_0.index t 0 * 1 + 1 * (y 0).val = t.val; omega
  | ⟨1, _⟩ => show win0_0.index t 1 * 56 + 1 * (y 1).val = (y 1).val; omega
  | ⟨2, _⟩ => show win0_0.index t 2 * 56 + 1 * (y 2).val = (y 2).val; omega
  | ⟨3, _⟩ => show win0_0.index t 3 * 128 + 1 * (y 3).val = (y 3).val; omega

/-- The weight window's block at every point is the whole weight matrix. -/
private theorem iblk_w (c : Dev nD) (t : Fin cfg0.N) :
    (iblk0 V c 1 t : Vec Ideal S1152x256 .bf16) = V c main_v3 := by
  obtain ⟨-, -, -, -, e0, e1, -⟩ := index_facts t
  funext y
  unfold iblk0
  rw [View.read_apply]
  show V c main_v3 _ = V c main_v3 _
  congr 1
  funext a; apply Fin.ext
  match a with
  | ⟨0, _⟩ => show win0_1.index t 0 * 1152 + 1 * (y 0).val = (y 0).val; omega
  | ⟨1, _⟩ => show win0_1.index t 1 * 256 + 1 * (y 1).val = (y 1).val; omega

/-- The accumulator's entry depends on its image, row and column only through their values. -/
private theorem acc_congr (c : Dev nD) {b b' : Fin 32} {r r' : Fin 3136} {co co' : Fin 256}
    (hb : b.val = b'.val) (hr : r.val = r'.val) (hc : co.val = co'.val) :
    acc V c b (ix2 r co) = acc V c b' (ix2 r' co') := by
  obtain rfl := Fin.ext hb
  obtain rfl := Fin.ext hr
  obtain rfl := Fin.ext hc
  rfl

/-- What point t writes back to the pre-normalisation array is block t of the array of all the images'
    accumulators: the body's one store leaves the accumulator of the point's image, and the block's index
    (0, r, co) sits at (t, r, co) in the array. -/
private theorem flushed_y (c : Dev nD) (t : Fin cfg0.N) :
    (dat0 V c).flushed 2 t = ((cfg0.win 2).blk t).view.read (Elt Ideal) (fun i => acc V c (i 0) (ix2 (i 1) (i 2))) := by
  show (cfg0.win 2).cut (grid0.coords t) ((dat0 V c).after 2 t) = _
  rw [after0_2]
  unfold out0_2
  rw [View.canon_unit_zero zero3]
  simp only [View.ld_unit_zero (S := S1x56x56x128) zero4, View.ld_unit_zero (S := S1152x256) zero2]
  rw [iblk_x, iblk_w]
  obtain ⟨-, -, -, -, -, -, e0, e1, e2, -⟩ := index_facts t
  funext j
  show k0_pay3 (xblk V c ⟨t.val, t.isLt⟩) (V c main_v3) ((cfg0.win 2).xinj (grid0.coords t) j)
    = acc V c ((((cfg0.win 2).blk t).view.emb j) 0) (ix2 ((((cfg0.win 2).blk t).view.emb j) 1) ((((cfg0.win 2).blk t).view.emb j) 2))
  refine (pay3_apply _ _ _).trans ?_
  have h0 : (j 0).val < 1 := (j 0).isLt
  refine acc_congr V c ?_ ?_ ?_
  · show t.val = win0_2.index t 0 * 1 + 1 * (j 0).val; omega
  · show (j 1).val = win0_2.index t 1 * 3136 + 1 * (j 1).val; omega
  · show (j 2).val = win0_2.index t 2 * 256 + 1 * (j 2).val; omega

/-- An index of the pre-normalisation array lies in point t's block iff every coordinate lies in the block's
    range on its axis. -/
private theorem mem_blk_y (t : Fin cfg0.N) (i : S32x3136x256.Idx) :
    i ∈ ((cfg0.win 2).blk t).view.set ↔ ∀ a : Fin 3, win0_2.index t a * S1x3136x256.size a ≤ (i a).val
      ∧ (i a).val < win0_2.index t a * S1x3136x256.size a + S1x3136x256.size a := by
  show i ∈ ((View.whole main_v4_0).slice (win0_2.rect t)).set ↔ _
  rw [View.set_slice_whole, Rect.mem_set_unit]
  exact Iff.rfl

/-! ## The statistics window -/

/-- A sum over the rows of a 3136 × 256 matrix, read at column co: the sum of the column's entries. -/
private theorem colsum_apply (m : FVec Ideal S3136x256 .f32) (co : Fin 256) :
    multiReduction .add [0] S256 m 0x00000000#32 reduces_S3136x256_S256 (.inl rfl) rfl (ix1 co)
      = ∑ r : Fin 3136, m (ix2 r co) := by
  refine (Ideal.multiReduction_add_single m 0x00000000#32 reduces_S3136x256_S256 (.inl rfl) rfl (ix1 co)).trans ?_
  refine Finset.sum_congr rfl fun r _ => congrArg m ?_
  funext a
  match a with
  | ⟨0, _⟩ => rfl
  | ⟨1, _⟩ => rfl

/-- A vector of 256 entries stored as a 1 × 1 × 256 row, read at an index: the entry of the index's last
    coordinate. -/
private theorem pay1_apply (v : FVec Ideal S256 .f32) (j : S1x1x256.Idx) : k0_pay1 v j = v (ix1 (j 2)) := by
  unfold k0_pay1
  refine (shapeCast_addUnit_apply ![1, 256] _ _ j).trans ?_
  refine (shapeCast_addUnit_apply ![256] _ _ _).trans ?_
  exact congrArg v (funext fun a => match a with | ⟨0, _⟩ => rfl)

/-- The second store's payload at an index: the accumulator's column sum. -/
private theorem pay4_apply (x0 : Vec Ideal S1x56x56x128 .f32) (x1 : Vec Ideal S1152x256 .bf16) (j : S1x1x256.Idx) :
    k0_pay4 x0 x1 j = ∑ r : Fin 3136, k0_pay2 x0 x1 (ix2 r (j 2)) := by
  unfold k0_pay4
  refine (shapeCast_addUnit_apply ![1, 256] _ _ j).trans ?_
  refine (shapeCast_addUnit_apply ![256] _ _ _).trans ?_
  refine Eq.trans (congrArg _ (funext fun a => match a with | ⟨0, _⟩ => rfl)) (colsum_apply (k0_pay2 x0 x1) (j 2))

/-- The column sums of the accumulator's squares, at column co. -/
private theorem pay5_apply (x0 : Vec Ideal S1x56x56x128 .f32) (x1 : Vec Ideal S1152x256 .bf16) (co : Fin 256) :
    k0_pay5 x0 x1 (ix1 co) = ∑ r : Fin 3136, k0_pay2 x0 x1 (ix2 r co) * k0_pay2 x0 x1 (ix2 r co) := by
  unfold k0_pay5
  exact colsum_apply (mulf (k0_pay2 x0 x1) (k0_pay2 x0 x1)) co

/-- The statistics block of an accumulator: row 0 its column sums, row 1 the column sums of its squares. -/
private def stats (m : FVec Ideal S3136x256 .f32) : Vec Ideal S1x2x256 .f32 := fun y =>
  if (y 1).val = 0 then ∑ r : Fin 3136, m (ix2 r (y 2)) else ∑ r : Fin 3136, m (ix2 r (y 2)) * m (ix2 r (y 2))

/-- What the body leaves in the statistics window's buffer: its two row stores, row 1 the column sums of the
    squares and row 0 the column sums, are the two rows of the accumulator's statistics block. -/
private theorem out_stats (x0 : Vec Ideal S1x56x56x128 .f32) (x1 : Vec Ideal S1152x256 .bf16) :
    out0_3 x0 x1 = stats (k0_pay2 x0 x1) := by
  unfold out0_3
  rw [View.ld_unit_zero zero4, View.ld_unit_zero zero2]
  funext y
  refine View.canon_apply_of_pieces (stats (k0_pay2 x0 x1)) _ ?_ y (cover0_3 _ _ y)
  intro p hp x
  simp only [List.mem_cons, List.not_mem_nil, or_false] at hp
  rcases hp with rfl | rfl
  · show k0_pay1 (k0_pay5 x0 x1) x = stats (k0_pay2 x0 x1) (r0_4.emb x)
    have hrow : ¬ ((r0_4.emb x 1).val = 0) := by
      show ¬ (1 + 1 * (x 1).val = 0); omega
    have hcol : r0_4.emb x 2 = x 2 := Fin.ext (by show 0 + 1 * (x 2).val = (x 2).val; omega)
    unfold stats
    rw [if_neg hrow, hcol]
    exact (pay1_apply _ x).trans (pay5_apply x0 x1 (x 2))
  · show k0_pay4 x0 x1 x = stats (k0_pay2 x0 x1) (r0_3.emb x)
    have h1 : (x 1).val < 1 := (x 1).isLt
    have hrow : (r0_3.emb x 1).val = 0 := by
      show 0 + 1 * (x 1).val = 0; omega
    have hcol : r0_3.emb x 2 = x 2 := Fin.ext (by show 0 + 1 * (x 2).val = (x 2).val; omega)
    unfold stats
    rw [if_pos hrow, hcol]
    exact pay4_apply x0 x1 x

/-- The statistics array of all the images' accumulators: row 0 of image b holds the column sums of b's
    accumulator, row 1 the column sums of its squares. -/
private def statsAll (c : Dev nD) : S32x2x256.Idx → Ideal .f32 := fun i =>
  if (i 1).val = 0 then ∑ r : Fin 3136, acc V c (i 0) (ix2 r (i 2))
  else ∑ r : Fin 3136, acc V c (i 0) (ix2 r (i 2)) * acc V c (i 0) (ix2 r (i 2))

/-- Image b's statistics block at (·, row, co) is the statistics array at (b, row, co). -/
private theorem stats_eq_statsAll (c : Dev nD) {b : Fin 32} {y : S1x2x256.Idx} {i : S32x2x256.Idx}
    (h0 : b.val = (i 0).val) (h1 : (y 1).val = (i 1).val) (h2 : (y 2).val = (i 2).val) :
    stats (acc V c b) y = statsAll V c i := by
  have e0 : b = i 0 := Fin.ext h0
  have e2 : y 2 = i 2 := Fin.ext h2
  unfold stats statsAll
  rw [e0, e2, h1]

/-- What point t writes back to the statistics array is block t of the statistics array of all the images'
    accumulators: the block's index (0, row, co) sits at (t, row, co) in the array. -/
private theorem flushed_stats (c : Dev nD) (t : Fin cfg0.N) :
    (dat0 V c).flushed 3 t = ((cfg0.win 3).blk t).view.read (Elt Ideal) (statsAll V c) := by
  show (cfg0.win 3).cut (grid0.coords t) ((dat0 V c).after 3 t) = _
  rw [after0_3, iblk_x, iblk_w, out_stats]
  obtain ⟨-, -, -, -, -, -, -, -, -, e0, e1, e2⟩ := index_facts t
  funext j
  show stats (acc V c ⟨t.val, t.isLt⟩) ((cfg0.win 3).xinj (grid0.coords t) j)
    = statsAll V c (((cfg0.win 3).blk t).view.emb j)
  have h0 : (j 0).val < 1 := (j 0).isLt
  refine stats_eq_statsAll V c ?_ ?_ ?_
  · show t.val = win0_3.index t 0 * 1 + 1 * (j 0).val; omega
  · show (j 1).val = win0_3.index t 1 * 2 + 1 * (j 1).val; omega
  · show (j 2).val = win0_3.index t 2 * 256 + 1 * (j 2).val; omega

/-- An index of the statistics array lies in point t's block iff every coordinate lies in the block's range on
    its axis. -/
private theorem mem_blk_stats (t : Fin cfg0.N) (i : S32x2x256.Idx) :
    i ∈ ((cfg0.win 3).blk t).view.set ↔ ∀ a : Fin 3, win0_3.index t a * S1x2x256.size a ≤ (i a).val
      ∧ (i a).val < win0_3.index t a * S1x2x256.size a + S1x2x256.size a := by
  show i ∈ ((View.whole main_v4_1).slice (win0_3.rect t)).set ↔ _
  rw [View.set_slice_whole, Rect.mem_set_unit]
  exact Iff.rfl

/-! ## The two arrays after the launch -/

/-- The pre-normalisation array after the launch: entry (b, r, co) is image b's accumulator at (r, co). -/
theorem arr_y (c : Dev nD) :
    (dat0 V c).arrAt 2 cfg0.N = fun i => acc V c (i 0) (ix2 (i 1) (i 2)) := by
  -- every index (b, r, co) lies in the block of point b, and every point writes its block back
  exact (dat0 V c).arrAt_eq_of_cover 2 _ (fun t _ => flushed_y V c t) fun i =>
    ⟨⟨(i 0).val, (i 0).isLt⟩, flush0_2 _, by
      rw [mem_blk_y]
      obtain ⟨-, -, -, -, -, -, e0, e1, e2, -⟩ := index_facts ⟨(i 0).val, (i 0).isLt⟩
      have e0' : win0_2.index ⟨(i 0).val, (i 0).isLt⟩ 0 = (i 0).val := e0
      have h1 : (i 1).val < 3136 := (i 1).isLt
      have h2 : (i 2).val < 256 := (i 2).isLt
      intro a
      match a with
      | ⟨0, _⟩ => show win0_2.index ⟨(i 0).val, (i 0).isLt⟩ 0 * 1 ≤ (i 0).val ∧ (i 0).val < win0_2.index ⟨(i 0).val, (i 0).isLt⟩ 0 * 1 + 1; rw [e0']; omega
      | ⟨1, _⟩ => show win0_2.index ⟨(i 0).val, (i 0).isLt⟩ 1 * 3136 ≤ (i 1).val ∧ (i 1).val < win0_2.index ⟨(i 0).val, (i 0).isLt⟩ 1 * 3136 + 3136; rw [e1]; omega
      | ⟨2, _⟩ => show win0_2.index ⟨(i 0).val, (i 0).isLt⟩ 2 * 256 ≤ (i 2).val ∧ (i 2).val < win0_2.index ⟨(i 0).val, (i 0).isLt⟩ 2 * 256 + 256; rw [e2]; omega⟩

/-- The statistics array after the launch: row 0 of image b holds the accumulator's column sums, row 1 the column
    sums of its squares. -/
theorem arr_stats (c : Dev nD) :
    (dat0 V c).arrAt 3 cfg0.N = fun i =>
      if (i 1).val = 0 then ∑ r : Fin 3136, acc V c (i 0) (ix2 r (i 2))
      else ∑ r : Fin 3136, acc V c (i 0) (ix2 r (i 2)) * acc V c (i 0) (ix2 r (i 2)) := by
  -- every index (b, row, co) lies in the block of point b, and every point writes its block back
  exact (dat0 V c).arrAt_eq_of_cover 3 (statsAll V c) (fun t _ => flushed_stats V c t) fun i =>
    ⟨⟨(i 0).val, (i 0).isLt⟩, flush0_3 _, by
      rw [mem_blk_stats]
      obtain ⟨-, -, -, -, -, -, -, -, -, e0, e1, e2⟩ := index_facts ⟨(i 0).val, (i 0).isLt⟩
      have e0' : win0_3.index ⟨(i 0).val, (i 0).isLt⟩ 0 = (i 0).val := e0
      have h1 : (i 1).val < 2 := (i 1).isLt
      have h2 : (i 2).val < 256 := (i 2).isLt
      intro a
      match a with
      | ⟨0, _⟩ => show win0_3.index ⟨(i 0).val, (i 0).isLt⟩ 0 * 1 ≤ (i 0).val ∧ (i 0).val < win0_3.index ⟨(i 0).val, (i 0).isLt⟩ 0 * 1 + 1; rw [e0']; omega
      | ⟨1, _⟩ => show win0_3.index ⟨(i 0).val, (i 0).isLt⟩ 1 * 2 ≤ (i 1).val ∧ (i 1).val < win0_3.index ⟨(i 0).val, (i 0).isLt⟩ 1 * 2 + 2; rw [e1]; omega
      | ⟨2, _⟩ => show win0_3.index ⟨(i 0).val, (i 0).isLt⟩ 2 * 256 ≤ (i 2).val ∧ (i 2).val < win0_3.index ⟨(i 0).val, (i 0).isLt⟩ 2 * 256 + 256; rw [e2]; omega⟩

end Cert.KernelIdeal.Region0

end
-- ==== Proof.KRegion1.lean ====
import proofs.«172489_g2000705972228531_pallasbulk_146_4_alg».proof.Proof.Gen.KernelIdeal.Frame
import proofs.«172489_g2000705972228531_pallasbulk_146_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.ValueIdx Idealize.ShloMosaic.TcCoe Idealize.SL.Sem
open Cert.KernelIdeal Cert.KernelIdeal.Gen

/- The second launch, one grid point per image: the point loads the image's block of the pre-normalisation array and
   the per-channel scale and shift rows, and writes back the affine map followed by the hard-swish, entry by entry.
   Stated at the contents V the launch is entered from. -/

section Layout
variable {α : Type}

/-- Adding the unit image axis: the [1, 3136, 256] view at (0, r, co) is the [3136, 256] value at (r, co). -/
theorem cast_add (v : S3136x256.Idx → α) (h : S3136x256.ShapeCasts S1x3136x256) (r : Fin 3136) (co : Fin 256) :
    shapeCast S1x3136x256 v h (ix3 0 r co) = v (ix2 r co) := by
  refine (shapeCast_addUnit_apply ![3136, 256] v h (ix3 0 r co)).trans (congrArg v ?_)
  funext a; match a with | ⟨0, _⟩ => rfl | ⟨1, _⟩ => rfl

/-- Dropping it: the [3136, 256] view at (r, co) is the [1, 3136, 256] value at (0, r, co). -/
theorem cast_drop (v : S1x3136x256.Idx → α) (h : S1x3136x256.ShapeCasts S3136x256) (r : Fin 3136) (co : Fin 256) :
    shapeCast S3136x256 v h (ix2 r co) = v (ix3 0 r co) := by
  refine (shapeCast_dropUnit_apply ![3136, 256] v h (ix2 r co)).trans (congrArg v ?_)
  funext a; match a with | ⟨0, _⟩ => rfl | ⟨1, _⟩ => rfl | ⟨2, _⟩ => rfl

/-- A [1, 256] row spread over the 3136 rows reads, at (r, co), the row at (0, co). -/
theorem row_bcast (v : S1x256.Idx → α) (h : S1x256.Broadcasts S3136x256) (r : Fin 3136) (co : Fin 256) :
    broadcastTo S3136x256 v h (ix2 r co) = v (ix2 0 co) := by
  refine broadcastTo_apply v h (ix2 r co) (ix2 0 co) ?_
  intro a; match a with | ⟨0, _⟩ => rfl | ⟨1, _⟩ => rfl

end Layout

/-- The body's value at entry (0, r, co) of its block: the affine map and hard-swish of the loaded entry and the two
    row entries of channel co. -/
theorem pay_apply (x0 : Vec Ideal S1x3136x256 .bf16) (x1 : Vec Ideal S1x256 .f32) (x2 : Vec Ideal S1x256 .f32)
    (r : Fin 3136) (co : Fin 256) :
    k1_pay1 x0 x1 x2 (ix3 0 r co) = Cert.Spec.bnhsw (x0 (ix3 0 r co)) (x1 (ix2 0 co)) (x2 (ix2 0 co)) := by
  unfold k1_pay1 Cert.Spec.bnhsw
  refine (cast_add _ _ r co).trans ?_
  simp only [mulf_apply, addf_apply, maximumf_apply, minimumf_apply, broadcast_apply, extf_apply, row_bcast, cast_drop, shapeCast_self]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps over the 32 grid points: the input block moves with the output block, whose index is the image
    t on the first axis and zero on the other two; the two rows have block index zero. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- An entry of the output array lies in point t's block iff each coordinate lies in the block's range on its axis. -/
theorem mem_blk (t : Fin cfg1.N) (i : S32x3136x256.Idx) :
    i ∈ ((cfg1.win 3).blk t).view.set ↔ ∀ a : Fin 3, win1_3.index t a * S1x3136x256.size a ≤ (i a).val
      ∧ (i a).val < win1_3.index t a * S1x3136x256.size a + S1x3136x256.size a := by
  show i ∈ ((View.whole main_v27).slice (win1_3.rect t)).set ↔ _
  rw [View.set_slice_whole, Rect.mem_set_unit]
  exact Iff.rfl

/-- Every entry (b, r, co) of the output array is written back by the point of its image b. -/
theorem cover (i : S32x3136x256.Idx) :
    ∃ t : Fin cfg1.N, (cfg1.win 3).flush t = true ∧ i ∈ ((cfg1.win 3).blk t).view.set := by
  have h0 : (i 0).val < 32 := (i 0).isLt
  have h1 : (i 1).val < 3136 := (i 1).isLt
  have h2 : (i 2).val < 256 := (i 2).isLt
  have hN : cfg1.N = 32 := N_1
  have key : ∀ t : Fin cfg1.N, t.val = (i 0).val → i ∈ ((cfg1.win 3).blk t).view.set := by
    intro t ht
    obtain ⟨-, -, -, -, -, -, -, o0, o1, o2⟩ := idx_facts t
    rw [mem_blk]
    intro a
    match a with
    | ⟨0, _⟩ =>
      show win1_3.index t (0 : Fin 3) * 1 ≤ (i 0).val ∧ (i 0).val < win1_3.index t (0 : Fin 3) * 1 + 1
      omega
    | ⟨1, _⟩ =>
      show win1_3.index t (1 : Fin 3) * 3136 ≤ (i 1).val ∧ (i 1).val < win1_3.index t (1 : Fin 3) * 3136 + 3136
      omega
    | ⟨2, _⟩ =>
      show win1_3.index t (2 : Fin 3) * 256 ≤ (i 2).val ∧ (i 2).val < win1_3.index t (2 : Fin 3) * 256 + 256
      omega
  exact ⟨⟨(i 0).val, by omega⟩, flush1_3 _, key _ rfl⟩

variable (V : (c : Dev nD) → (b : Ref sig .tc) → Buf (Elt Ideal) ((c : Thread nD τ).loc b))

/-- What grid point t writes back is block t of the whole-array function: the block of the pre-normalisation array sits
    at the same place as the output's block, and the two rows are read whole, so entry (0, r, co) of the body's value is
    the function at array entry (t, r, co). -/
theorem flushed_eq (c : Dev nD) (t : Fin cfg1.N) :
    (dat1 V c).flushed 3 t = ((cfg1.win 3).blk t).view.read (Elt Ideal) (fun i =>
      Cert.Spec.bnhsw (V c main_v4_0 i) (V c main_v22 (ix2 0 (i 2))) (V c main_v26 (ix2 0 (i 2)))) := by
  show (cfg1.win 3).cut (grid1.coords t) ((dat1 V c).after 3 t) = _
  rw [after1_3]
  unfold out1_3
  rw [View.canon_unit_zero hz3]
  simp only [View.ld_unit_zero (S := S1x3136x256) hz3, View.ld_unit_zero (S := S1x256) hz2]
  obtain ⟨e0, e1, e2, a0, a1, b0, b1, o0, o1, o2⟩ := idx_facts t
  funext j
  obtain ⟨p, r, co, rfl⟩ : ∃ (p : Fin 1) (r : Fin 3136) (co : Fin 256), j = ix3 p r co := ⟨j 0, j 1, j 2, eq_ix3 j⟩
  obtain rfl : p = 0 := Subsingleton.elim _ _
  show k1_pay1 (iblk1 V c 0 t) (iblk1 V c 1 t) (iblk1 V c 2 t) (ix3 0 r co) = _
  refine (pay_apply _ _ _ r co).trans ?_
  show Cert.Spec.bnhsw (V c main_v4_0 (((cfg1.win 0).blk t).view.emb (ix3 0 r co)))
        (V c main_v22 (((cfg1.win 1).blk t).view.emb (ix2 0 co))) (V c main_v26 (((cfg1.win 2).blk t).view.emb (ix2 0 co)))
      = Cert.Spec.bnhsw (V c main_v4_0 (((cfg1.win 3).blk t).view.emb (ix3 0 r co)))
        (V c main_v22 (ix2 0 ((((cfg1.win 3).blk t).view.emb (ix3 0 r co)) 2)))
        (V c main_v26 (ix2 0 ((((cfg1.win 3).blk t).view.emb (ix3 0 r co)) 2)))
  have hr : r.val < 3136 := r.isLt
  have hco : co.val < 256 := co.isLt
  have h0 : ((cfg1.win 0).blk t).view.emb (ix3 0 r co) = ((cfg1.win 3).blk t).view.emb (ix3 0 r co) := by
    funext a; apply Fin.ext
    match a with
    | ⟨0, _⟩ => show win1_0.index t (0 : Fin 3) * 1 + 1 * 0 = win1_3.index t (0 : Fin 3) * 1 + 1 * 0; omega
    | ⟨1, _⟩ => show win1_0.index t (1 : Fin 3) * 3136 + 1 * r.val = win1_3.index t (1 : Fin 3) * 3136 + 1 * r.val; omega
    | ⟨2, _⟩ => show win1_0.index t (2 : Fin 3) * 256 + 1 * co.val = win1_3.index t (2 : Fin 3) * 256 + 1 * co.val; omega
  have h1 : ((cfg1.win 1).blk t).view.emb (ix2 0 co) = ix2 0 ((((cfg1.win 3).blk t).view.emb (ix3 0 r co)) 2) := by
    funext a; apply Fin.ext
    match a with
    | ⟨0, _⟩ => show win1_1.index t (0 : Fin 2) * 1 + 1 * 0 = 0; omega
    | ⟨1, _⟩ => show win1_1.index t (1 : Fin 2) * 256 + 1 * co.val = win1_3.index t (2 : Fin 3) * 256 + 1 * co.val; omega
  have h2 : ((cfg1.win 2).blk t).view.emb (ix2 0 co) = ix2 0 ((((cfg1.win 3).blk t).view.emb (ix3 0 r co)) 2) := by
    funext a; apply Fin.ext
    match a with
    | ⟨0, _⟩ => show win1_2.index t (0 : Fin 2) * 1 + 1 * 0 = 0; omega
    | ⟨1, _⟩ => show win1_2.index t (1 : Fin 2) * 256 + 1 * co.val = win1_3.index t (2 : Fin 3) * 256 + 1 * co.val; omega
  rw [h0, h1, h2]
  rfl

/-- The output array after the launch: entry (b, r, co) is the hard-swish of y(b, r, co) · scale(co) + shift(co). -/
theorem arr_out (c : Dev nD) :
    (dat1 V c).arrAt 3 cfg1.N = fun i =>
      Cert.Spec.bnhsw (V c main_v4_0 i) (V c main_v22 (ix2 0 (i 2))) (V c main_v26 (ix2 0 (i 2))) :=
  (dat1 V c).arrAt_eq_of_cover 3 _ (fun t _ => flushed_eq V c t) cover

end Cert.KernelIdeal.Region1

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KConv.lean ====
import proofs.«172489_g2000705972228531_pallasbulk_146_4_alg».proof.Proof.Gen.KernelIdeal.Frame
import proofs.«172489_g2000705972228531_pallasbulk_146_4_alg».proof.Proof.Spec
import proofs.«172489_g2000705972228531_pallasbulk_146_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Conv

open Idealize.ShloMosaic Idealize.ShloMosaic.ValueIdx Idealize.ShloMosaic.TcCoe Idealize.SL.Sem
open Cert.KernelIdeal Cert.KernelIdeal.Gen

/-! ## The zero word -/

/-- The bf16 word of all zero bits is the extended real 0. -/
theorem bf16_zero : (Scalar.ofBits (F := Ideal) .bf16 0x0000#16 : EReal) = 0 := by
  show Ideal.ofBits .bf16 0x0000#16 = 0
  simp [Ideal.ofBits, Ideal.ieee]

/-! ## A sum over 1152 positions as nine blocks of 128 -/

/-- Position κ < 1152 is 128·t + ci for exactly one tap t < 9 and one channel ci < 128, so a sum over the positions is
    the double sum over taps and channels. -/
theorem sum_blocks {M : Type*} [AddCommMonoid M] (F : Fin 1152 → M) :
    ∑ κ : Fin 1152, F κ
      = ∑ t : Fin 9, ∑ ci : Fin 128, F ⟨128 * t.val + ci.val, by have := t.isLt; have := ci.isLt; omega⟩ := by
  rw [← Equiv.sum_comp (finProdFinEquiv : Fin 9 × Fin 128 ≃ Fin 1152) F, Fintype.sum_prod_type]
  refine Finset.sum_congr rfl fun t _ => Finset.sum_congr rfl fun ci _ => congrArg F (Fin.ext ?_)
  show ci.val + 128 * t.val = 128 * t.val + ci.val
  omega

/-- A sum over nine taps written out, added from the left. -/
theorem sum_nine {M : Type*} [AddCommMonoid M] (g : Fin 9 → M) :
    ∑ t : Fin 9, g t = g 0 + g 1 + g 2 + g 3 + g 4 + g 5 + g 6 + g 7 + g 8 := by
  rw [Fin.sum_univ_castSucc, Fin.sum_univ_eight]
  rfl

/-! ## The layout operations of the body, read at an index -/

section Layout
variable {α : Type}

/-- The block with its unit axis cast away, at (h, w, ci), is the block at (0, h, w, ci). -/
theorem dropUnit_apply (x : S1x56x56x128.Idx → α) (hc : S1x56x56x128.ShapeCasts S56x56x128) (h w : Fin 56) (ci : Fin 128) :
    shapeCast S56x56x128 x hc (ix3 h w ci) = x (ix4 0 h w ci) := by
  refine shapeCast_apply x hc (ix3 h w ci) (ix4 0 h w ci) ?_
  rw [Shape.rowMajor_val_four, Shape.rowMajor_val_three]
  show ((0 * 56 + h.val) * 56 + w.val) * 128 + ci.val = (h.val * 56 + w.val) * 128 + ci.val
  omega

/-- Framing by one column on either side: a column coordinate ww < 58 of the framed rows is the frame's value at 0 and
    at 57, and column ww − 1 of the rows in between. -/
theorem frame_cols_apply (A : S56x56x128.Idx → α) (z : α)
    (hcat : Shape.Concatenates ([(⟨S56x1x128, broadcast S56x1x128 z⟩ : (s : Shape) × (s.Idx → α)), ⟨S56x56x128, A⟩,
      ⟨S56x1x128, broadcast S56x1x128 z⟩].map (·.1)) S56x58x128 1)
    (h : Fin 56) (ww : ℕ) (hww : ww < 58) (ci : Fin 128) :
    concatenate S56x58x128 1 [⟨S56x1x128, broadcast S56x1x128 z⟩, ⟨S56x56x128, A⟩, ⟨S56x1x128, broadcast S56x1x128 z⟩] hcat
        (ix3 h ⟨ww, hww⟩ ci)
      = if hin : 1 ≤ ww ∧ ww ≤ 56 then A (ix3 h ⟨ww - 1, by omega⟩ ci) else z := by
  by_cases hin : 1 ≤ ww ∧ ww ≤ 56
  · rw [dif_pos hin]
    exact concatenate_apply_piece 1 _ hcat (ix3 h ⟨ww, hww⟩ ci) 1 (by show (1 : ℕ) < 3; omega) S56x56x128 A rfl rfl 1 rfl
      (ix3 h ⟨ww - 1, by omega⟩ ci)
      (fun b hb => match b with
        | ⟨0, _⟩ => rfl
        | ⟨1, _⟩ => absurd rfl hb
        | ⟨2, _⟩ => rfl)
      (by show 1 + (ww - 1) = ww; omega)
  · rw [dif_neg hin]
    by_cases h0 : ww = 0
    · exact concatenate_apply_piece 1 _ hcat (ix3 h ⟨ww, hww⟩ ci) 0 (by show (0 : ℕ) < 3; omega) S56x1x128 (broadcast S56x1x128 z) rfl rfl 0 rfl
        (ix3 h ⟨0, by omega⟩ ci)
        (fun b hb => match b with
          | ⟨0, _⟩ => rfl
          | ⟨1, _⟩ => absurd rfl hb
          | ⟨2, _⟩ => rfl)
        (by show 0 + 0 = ww; omega)
    · exact concatenate_apply_piece 1 _ hcat (ix3 h ⟨ww, hww⟩ ci) 2 (by show (2 : ℕ) < 3; omega) S56x1x128 (broadcast S56x1x128 z) rfl rfl 57 rfl
        (ix3 h ⟨0, by omega⟩ ci)
        (fun b hb => match b with
          | ⟨0, _⟩ => rfl
          | ⟨1, _⟩ => absurd rfl hb
          | ⟨2, _⟩ => rfl)
        (by show 57 + 0 = ww; omega)

/-- Framing by one row above and below: a row coordinate hh < 58 of the framed block is the frame's value at 0 and at
    57, and row hh − 1 of the rows in between. -/
theorem frame_rows_apply (B : S56x58x128.Idx → α) (z : α)
    (hcat : Shape.Concatenates ([(⟨S1x58x128, broadcast S1x58x128 z⟩ : (s : Shape) × (s.Idx → α)), ⟨S56x58x128, B⟩,
      ⟨S1x58x128, broadcast S1x58x128 z⟩].map (·.1)) S58x58x128 0)
    (hh : ℕ) (hhh : hh < 58) (w : Fin 58) (ci : Fin 128) :
    concatenate S58x58x128 0 [⟨S1x58x128, broadcast S1x58x128 z⟩, ⟨S56x58x128, B⟩, ⟨S1x58x128, broadcast S1x58x128 z⟩] hcat
        (ix3 ⟨hh, hhh⟩ w ci)
      = if hin : 1 ≤ hh ∧ hh ≤ 56 then B (ix3 ⟨hh - 1, by omega⟩ w ci) else z := by
  by_cases hin : 1 ≤ hh ∧ hh ≤ 56
  · rw [dif_pos hin]
    exact concatenate_apply_piece 0 _ hcat (ix3 ⟨hh, hhh⟩ w ci) 1 (by show (1 : ℕ) < 3; omega) S56x58x128 B rfl rfl 1 rfl
      (ix3 ⟨hh - 1, by omega⟩ w ci)
      (fun b hb => match b with
        | ⟨0, _⟩ => absurd rfl hb
        | ⟨1, _⟩ => rfl
        | ⟨2, _⟩ => rfl)
      (by show 1 + (hh - 1) = hh; omega)
  · rw [dif_neg hin]
    by_cases h0 : hh = 0
    · exact concatenate_apply_piece 0 _ hcat (ix3 ⟨hh, hhh⟩ w ci) 0 (by show (0 : ℕ) < 3; omega) S1x58x128 (broadcast S1x58x128 z) rfl rfl 0 rfl
        (ix3 ⟨0, by omega⟩ w ci)
        (fun b hb => match b with
          | ⟨0, _⟩ => absurd rfl hb
          | ⟨1, _⟩ => rfl
          | ⟨2, _⟩ => rfl)
        (by show 0 + 0 = hh; omega)
    · exact concatenate_apply_piece 0 _ hcat (ix3 ⟨hh, hhh⟩ w ci) 2 (by show (2 : ℕ) < 3; omega) S1x58x128 (broadcast S1x58x128 z) rfl rfl 57 rfl
        (ix3 ⟨0, by omega⟩ w ci)
        (fun b hb => match b with
          | ⟨0, _⟩ => absurd rfl hb
          | ⟨1, _⟩ => rfl
          | ⟨2, _⟩ => rfl)
        (by show 57 + 0 = hh; omega)

/-- One shifted window of the framed block, flattened to pixels: at pixel r = h·56 + w and channel ci it is the
    framed block at (h + i, w + j, ci). -/
theorem window_apply (V : S58x58x128.Idx → α) (i j : ℕ) (hi : i < 3) (hj : j < 3)
    (hs : S58x58x128.Slices ![i, j, 0] S56x56x128) (hc : S56x56x128.ShapeCasts S3136x128) (r : Fin 3136) (ci : Fin 128) :
    shapeCast S3136x128 (extractStridedSlice S56x56x128 ![i, j, 0] V hs) hc (ix2 r ci)
      = V (ix3 ⟨r.val / 56 + i, by have := r.isLt; omega⟩ ⟨r.val % 56 + j, by omega⟩ ci) := by
  have hr := r.isLt
  refine (shapeCast_apply _ hc (ix2 r ci) (ix3 ⟨r.val / 56, by omega⟩ ⟨r.val % 56, by omega⟩ ci) ?_).trans ?_
  · rw [Shape.rowMajor_val_three, Shape.rowMajor_val_two]
    show (r.val / 56 * 56 + r.val % 56) * 128 + ci.val = r.val * 128 + ci.val
    omega
  · exact extractStridedSlice_apply _ V hs _ _ (fun a => match a with
      | ⟨0, _⟩ => by show r.val / 56 + i = i + r.val / 56; omega
      | ⟨1, _⟩ => by show r.val % 56 + j = j + r.val % 56; omega
      | ⟨2, _⟩ => by show ci.val = 0 + ci.val; omega)

/-- Nine pieces of 128 columns side by side: column 128·t + ci is column ci of piece t. -/
theorem side_by_side_apply (f : Fin 9 → (S3136x128.Idx → α))
    (hcat : Shape.Concatenates ((List.ofFn fun t : Fin 9 => (⟨S3136x128, f t⟩ : (s : Shape) × (s.Idx → α))).map (·.1)) S3136x1152 1)
    (r : Fin 3136) (t : Fin 9) (ci : Fin 128) :
    concatenate S3136x1152 1 (List.ofFn fun t : Fin 9 => (⟨S3136x128, f t⟩ : (s : Shape) × (s.Idx → α))) hcat
        (ix2 r ⟨128 * t.val + ci.val, by have := t.isLt; have := ci.isLt; omega⟩)
      = f t (ix2 r ci) := by
  have ht := t.isLt
  have hci := ci.isLt
  exact concatenate_ofFn_apply 1 f hcat rfl 128 rfl _ t (by show (128 * t.val + ci.val) / 128 = t.val; omega) (ix2 r ci)
    (by show ci.val = (128 * t.val + ci.val) % 128; omega)
    (fun b hb => match b with
      | ⟨0, _⟩ => rfl
      | ⟨1, _⟩ => absurd rfl hb)

end Layout

/-! ## The body's accumulator as a product of named pieces -/

/-- Each of the nine tap offsets (t / 3, t % 3, 0) leaves a 56 × 56 × 128 window inside the 58 × 58 × 128 framed block. -/
theorem slices_tap (t : Fin 9) : S58x58x128.Slices ![t.val / 3, t.val % 3, 0] S56x56x128 := by
  revert t; decide

/-- The loaded block, its unit axis cast away, framed by one ring of the zero word. -/
def framed (x0 : Vec Ideal S1x56x56x128 .f32) : FVec Ideal S58x58x128 .bf16 :=
  concatenate S58x58x128 0
    [⟨S1x58x128, broadcast S1x58x128 (Scalar.ofBits .bf16 0x0000#16)⟩,
     ⟨S56x58x128, concatenate S56x58x128 1
        [⟨S56x1x128, broadcast S56x1x128 (Scalar.ofBits .bf16 0x0000#16)⟩,
         ⟨S56x56x128, truncf .bf16 (shapeCast S56x56x128 x0 shapeCasts_S1x56x56x128_S56x56x128) bitsLt_bf16_f32⟩,
         ⟨S56x1x128, broadcast S56x1x128 (Scalar.ofBits .bf16 0x0000#16)⟩]
        concatenates_S56x1x128_S56x56x128_S56x1x128_S56x58x128_d1⟩,
     ⟨S1x58x128, broadcast S1x58x128 (Scalar.ofBits .bf16 0x0000#16)⟩]
    concatenates_S1x58x128_S56x58x128_S1x58x128_S58x58x128_d0

/-- Tap t's window of a framed block, flattened to pixels. -/
def win (V : FVec Ideal S58x58x128 .bf16) (t : Fin 9) : FVec Ideal S3136x128 .bf16 :=
  shapeCast S3136x128 (extractStridedSlice S56x56x128 ![t.val / 3, t.val % 3, 0] V (slices_tap t)) shapeCasts_S56x56x128_S3136x128

/-- The nine windows side by side: the left operand of the product. -/
def patches (x0 : Vec Ideal S1x56x56x128 .f32) : FVec Ideal S3136x1152 .bf16 :=
  concatenate S3136x1152 1 (List.ofFn fun t : Fin 9 => (⟨S3136x128, win (framed x0) t⟩ : (s : Shape) × (s.Idx → Ideal .bf16)))
    concatenates_S3136x128_S3136x128_S3136x128_S3136x128_S3136x128_S3136x128_S3136x128_S3136x128_S3136x128_S3136x1152_d1

/-- The accumulator is the product of the nine windows side by side with the loaded matrix, into zero. -/
theorem pay_eq (x0 : Vec Ideal S1x56x56x128 .f32) (wk : Vec Ideal S1152x256 .bf16) :
    k0_pay2 x0 wk = matmul dot_S3136x1152_S1152x256_S3136x256_1_0_0_1_n_n none (patches x0)
      (shapeCast S1152x256 wk shapeCasts_S1152x256_S1152x256 : FVec Ideal S1152x256 .bf16) (constant S3136x256 .f32 0x00000000#32) := rfl

/-! ## The pieces read at an index -/

/-- The framed block at padded coordinates (hh, ww) is the framed activation of image b there: inside the ring the
    block one row up and one column left, which is X by hypothesis; on the ring the zero word, which is 0. -/
theorem framed_apply (x0 : Vec Ideal S1x56x56x128 .f32) (X : Cert.Spec.SX.Idx → EReal) (b : Fin 32)
    (hx : ∀ (h w : Fin 56) (ci : Fin 128), x0 (ix4 0 h w ci) = X (ix4 b h w ci))
    (hh ww : ℕ) (hhh : hh < 58) (hww : ww < 58) (ci : Fin 128) :
    framed x0 (ix3 ⟨hh, hhh⟩ ⟨ww, hww⟩ ci) = Cert.Spec.xpad X b hh ww ci := by
  unfold framed Cert.Spec.xpad
  refine (frame_rows_apply _ _ _ hh hhh ⟨ww, hww⟩ ci).trans ?_
  by_cases h1 : 1 ≤ hh ∧ hh ≤ 56
  · rw [dif_pos h1]
    refine (frame_cols_apply _ _ _ ⟨hh - 1, by omega⟩ ww hww ci).trans ?_
    by_cases h2 : 1 ≤ ww ∧ ww ≤ 56
    · rw [dif_pos h2, dif_pos ⟨h1, h2⟩]
      exact (dropUnit_apply x0 _ ⟨hh - 1, by omega⟩ ⟨ww - 1, by omega⟩ ci).trans (hx _ _ ci)
    · rw [dif_neg h2, dif_neg (fun h => h2 h.2)]
      exact bf16_zero
  · rw [dif_neg h1, dif_neg (fun h => h1 h.1)]
    exact bf16_zero

/-- The left operand at pixel r and column 128·t + ci is the framed activation at the pixel shifted by tap t. -/
theorem patches_apply (x0 : Vec Ideal S1x56x56x128 .f32) (X : Cert.Spec.SX.Idx → EReal) (b : Fin 32)
    (hx : ∀ (h w : Fin 56) (ci : Fin 128), x0 (ix4 0 h w ci) = X (ix4 b h w ci))
    (r : Fin 3136) (t : Fin 9) (ci : Fin 128) :
    patches x0 (ix2 r ⟨128 * t.val + ci.val, by have := t.isLt; have := ci.isLt; omega⟩)
      = Cert.Spec.xpad X b (r.val / 56 + t.val / 3) (r.val % 56 + t.val % 3) ci := by
  have ht := t.isLt
  unfold patches
  refine (side_by_side_apply _ _ r t ci).trans ?_
  unfold win
  refine (window_apply _ (t.val / 3) (t.val % 3) (by omega) (by omega) _ _ r ci).trans ?_
  exact framed_apply x0 X b hx _ _ _ _ ci

/-- The loaded matrix at row 128·t + ci is the weight of tap (t / 3, t % 3) at input channel ci. -/
theorem weight_apply (wk : Vec Ideal S1152x256 .bf16) (W : Cert.Spec.SW.Idx → EReal)
    (hw : ∀ (i j : Fin 3) (ci : Fin 128) (co : Fin 256),
      wk (ix2 ⟨(i.val * 3 + j.val) * 128 + ci.val, by have := i.isLt; have := j.isLt; have := ci.isLt; omega⟩ co) = W (ix4 i j ci co))
    (t : Fin 9) (ci : Fin 128) (co : Fin 256) :
    wk (ix2 ⟨128 * t.val + ci.val, by have := t.isLt; have := ci.isLt; omega⟩ co)
      = W (ix4 ⟨t.val / 3, by have := t.isLt; omega⟩ ⟨t.val % 3, by omega⟩ ci co) := by
  refine Eq.trans (congrArg (fun κ => wk (ix2 κ co)) (Fin.ext ?_))
    (hw ⟨t.val / 3, by have := t.isLt; omega⟩ ⟨t.val % 3, by omega⟩ ci co)
  show 128 * t.val + ci.val = (t.val / 3 * 3 + t.val % 3) * 128 + ci.val
  omega

/-! ## The accumulator at an entry -/

/-- The body's accumulator at an entry is the convolution: when the loaded block x0 is image b of the activation X
    and the loaded matrix wk is the weights W with its rows numbered tap-major, (3·i + j)·128 + ci, the product of
    the nine side-by-side shifted windows of the zero-framed block with wk is, at (r, co), the sum of the nine
    taps. -/
theorem acc_apply (x0 : Vec Ideal S1x56x56x128 .f32) (wk : Vec Ideal S1152x256 .bf16)
    (X : Cert.Spec.SX.Idx → EReal) (W : Cert.Spec.SW.Idx → EReal) (b : Fin 32)
    (hx : ∀ (h w : Fin 56) (ci : Fin 128), x0 (ix4 0 h w ci) = X (ix4 b h w ci))
    (hw : ∀ (i j : Fin 3) (ci : Fin 128) (co : Fin 256),
      wk (ix2 ⟨(i.val * 3 + j.val) * 128 + ci.val, by have := i.isLt; have := j.isLt; have := ci.isLt; omega⟩ co) = W (ix4 i j ci co))
    (r : Fin 3136) (co : Fin 256) :
    k0_pay2 x0 wk (ix2 r co) = Cert.Spec.conv X W b r co := by
  rw [pay_eq]
  refine (Cert.PlainDot.matmul_zero_apply ⟨rfl, rfl, rfl, rfl, rfl, rfl⟩ rfl rfl none (patches x0) _ r co).trans ?_
  rw [shapeCast_self, sum_blocks]
  have key : ∀ t : Fin 9,
      (∑ ci : Fin 128, patches x0 (ix2 r ⟨128 * t.val + ci.val, by have := t.isLt; have := ci.isLt; omega⟩)
          * wk (ix2 ⟨128 * t.val + ci.val, by have := t.isLt; have := ci.isLt; omega⟩ co))
        = Cert.Spec.tap X W b r co ⟨t.val / 3, by have := t.isLt; omega⟩ ⟨t.val % 3, by omega⟩ := fun t =>
    Finset.sum_congr rfl fun ci _ => by
      rw [patches_apply x0 X b hx r t ci, weight_apply wk W hw t ci co]
  rw [Finset.sum_congr rfl fun t _ => key t, sum_nine]
  rfl

end Cert.KernelIdeal.Conv

end
-- ==== Proof.KValue.lean ====
import proofs.«172489_g2000705972228531_pallasbulk_146_4_alg».proof.Proof.Gen.KernelIdeal.Frame
import proofs.«172489_g2000705972228531_pallasbulk_146_4_alg».proof.Proof.Spec
import proofs.«172489_g2000705972228531_pallasbulk_146_4_alg».proof.Proof.Spec2
import proofs.«172489_g2000705972228531_pallasbulk_146_4_alg».proof.Proof.KHost
import proofs.«172489_g2000705972228531_pallasbulk_146_4_alg».proof.Proof.KRegion0
import proofs.«172489_g2000705972228531_pallasbulk_146_4_alg».proof.Proof.KRegion1
import proofs.«172489_g2000705972228531_pallasbulk_146_4_alg».proof.Proof.KConv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value

open Idealize.ShloMosaic Idealize.ShloMosaic.ValueIdx Idealize.ShloMosaic.TcCoe Idealize.SL.Sem
open Cert.KernelIdeal Cert.KernelIdeal.Gen

open Cert.KernelIdeal.Host

/- The program's result array as one function of its four arguments: the arrays named stage by stage — the
   accumulator and its statistics after the first launch, the scale and shift rows, the output of the second launch,
   and its re-layout — each at the specification's function of the channel-minor activation and the weights. -/

variable (m : (ℓ : Loc nD τ sig) → Buf (Elt Ideal) ℓ) (ρ : Dev nD → PrngReg)

/-- The channel-minor activation of the launch memory. -/
abbrev X (c : Dev nD) : Cert.Spec.SX.Idx → EReal := xT (m ((c : Thread nD τ).loc main_arg0))
/-- The 4-axis weights of the launch memory. -/
abbrev Wt (c : Dev nD) : Cert.Spec.SW.Idx → EReal := wT (m ((c : Thread nD τ).loc main_arg1))
/-- The statistics array, as the specification's. -/
abbrev St (c : Dev nD) : FVec Ideal S32x2x256 .f32 := Cert.Spec.stats (X m c) (Wt m c)
/-- The scale row. -/
abbrev Sc (c : Dev nD) : FVec Ideal S1x256 .f32 := foldScale (St m c) (m ((c : Thread nD τ).loc main_arg2))
/-- The shift row. -/
abbrev Sh (c : Dev nD) : FVec Ideal S1x256 .f32 :=
  foldShift (St m c) (m ((c : Thread nD τ).loc main_arg2)) (m ((c : Thread nD τ).loc main_arg3))

/-- Image b's accumulator at (r, co) is the convolution. -/
theorem acc_eq (c : Dev nD) (b : Fin 32) (r : Fin 3136) (co : Fin 256) :
    Region0.acc (V1 m ρ) c b (ix2 r co) = Cert.Spec.conv (X m c) (Wt m c) b r co := by
  unfold Region0.acc
  refine Conv.acc_apply _ _ (X m c) (Wt m c) b (fun h w ci => ?_) (fun i j ci co => v3_apply m ρ c i j ci co) r co
  show V1 m ρ c main_v0 (ix4 b h w ci) = _
  rw [v0_eq]

/-- The pre-normalisation array after the first launch. -/
theorem y_apply (c : Dev nD) (b : Fin 32) (r : Fin 3136) (co : Fin 256) :
    V2 m ρ c main_v4_0 (ix3 b r co) = Cert.Spec.conv (X m c) (Wt m c) b r co := by
  have e : V2 m ρ c main_v4_0 = (dat0 (V1 m ρ) c).arrAt 2 cfg0.N := W2_arr m ρ c 2
  rw [e, Region0.arr_y]
  exact acc_eq m ρ c b r co

/-- The statistics array after the first launch. -/
theorem stats_eq (c : Dev nD) : V2 m ρ c main_v4_1 = St m c := by
  have e : V2 m ρ c main_v4_1 = (dat0 (V1 m ρ) c).arrAt 3 cfg0.N := W2_arr m ρ c 3
  rw [e, Region0.arr_stats]
  funext i
  obtain ⟨b, s, co, rfl⟩ : ∃ (b : Fin 32) (s : Fin 2) (co : Fin 256), i = ix3 b s co := ⟨i 0, i 1, i 2, eq_ix3 i⟩
  show (if s.val = 0 then ∑ r : Fin 3136, Region0.acc (V1 m ρ) c b (ix2 r co)
      else ∑ r : Fin 3136, Region0.acc (V1 m ρ) c b (ix2 r co) * Region0.acc (V1 m ρ) c b (ix2 r co))
    = (if s.val = 0 then ∑ r : Fin 3136, Cert.Spec.conv (X m c) (Wt m c) b r co
      else ∑ r : Fin 3136, Cert.Spec.conv (X m c) (Wt m c) b r co * Cert.Spec.conv (X m c) (Wt m c) b r co)
  simp only [acc_eq m ρ c]

/-- The scale and shift rows between the launches. -/
theorem scale_eq (c : Dev nD) : V3 m ρ c main_v22 = Sc m c := by
  rw [v22_eq, stats_eq, arg2_at2]
theorem shift_eq (c : Dev nD) : V3 m ρ c main_v26 = Sh m c := by
  rw [v26_eq, stats_eq, arg2_at2, arg3_at2]

/-- The output of the second launch. -/
theorem out_apply (c : Dev nD) (b : Fin 32) (r : Fin 3136) (co : Fin 256) :
    V4 m ρ c main_v27 (ix3 b r co)
      = Cert.Spec.bnhsw (Cert.Spec.conv (X m c) (Wt m c) b r co) (Sc m c (ix2 0 co)) (Sh m c (ix2 0 co)) := by
  have e : V4 m ρ c main_v27 = (dat1 (V3 m ρ) c).arrAt 3 cfg1.N := W4_arr m ρ c 3
  rw [e, Region1.arr_out]
  show Cert.Spec.bnhsw (V3 m ρ c main_v4_0 (ix3 b r co)) (V3 m ρ c main_v22 (ix2 0 co)) (V3 m ρ c main_v26 (ix2 0 co)) = _
  rw [v4_0_kept, y_apply, scale_eq, shift_eq]

/-- THE RESULT ARRAY: the specification's result of the channel-minor activation, the weights and the two rows. -/
theorem result_eq (c : Dev nD) :
    W5 m ρ c (Proc.devRef .tc main_v29) = Cert.Spec.result (X m c) (Wt m c) (Sc m c) (Sh m c) := by
  rw [v29_eq]
  funext j
  obtain ⟨b, co, h, w, rfl⟩ : ∃ (b : Fin 32) (co : Fin 256) (h w : Fin 56), j = ix4 b co h w :=
    ⟨j 0, j 1, j 2, j 3, eq_ix4 j⟩
  refine (transpose_apply _ _ _ _ (ix4 b h w co) fun x => ?_).trans ?_
  · match x with
    | ⟨0, _⟩ => rfl
    | ⟨1, _⟩ => rfl
    | ⟨2, _⟩ => rfl
    | ⟨3, _⟩ => rfl
  refine (shapeCast_apply _ _ (ix4 b h w co) (ix3 b (Cert.Spec.pix h w) co) ?_).trans ?_
  · rw [Shape.rowMajor_val_three, Shape.rowMajor_val_four]
    show (b.val * 3136 + (h.val * 56 + w.val)) * 256 + co.val = ((b.val * 56 + h.val) * 56 + w.val) * 256 + co.val
    omega
  exact out_apply m ρ c b (Cert.Spec.pix h w) co

end Cert.KernelIdeal.Value

end
-- ==== Proof.RHost.lean ====
import proofs.«172489_g2000705972228531_pallasbulk_146_4_alg».proof.Proof.Gen.ReferenceIdeal.Frame
import proofs.«172489_g2000705972228531_pallasbulk_146_4_alg».proof.Proof.Spec
import proofs.«172489_g2000705972228531_pallasbulk_146_4_alg».proof.Proof.Spec2
import Idealize.ShloMosaic.Lib.StableHlo.Run
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Host

open Idealize.ShloMosaic Idealize.ShloMosaic.ValueIdx Idealize.ShloMosaic.TcCoe Idealize.SL.Sem
open Cert.ReferenceIdeal Cert.ReferenceIdeal.Gen

open Idealize.ShloMosaic.StableHlo

/- The host operations of the program, stretch by stretch, read as functions of the arrays each stretch is
   entered from: the two transposes, the zero frame around the activation and the (empty) paddings of the weights
   and of the two parameter vectors before the first launch; the fold of the statistics into the scale and shift
   rows between the launches; the re-layout of the output after the second. -/

/-- The activation made channel-minor: (image, row, column, channel). -/
def xT (a0 : FVec Ideal S32x128x56x56 .f32) : FVec Ideal S32x56x56x128 .f32 :=
  transpose S32x56x56x128 [0, 2, 3, 1] a0 transposes_S32x128x56x56_S32x56x56x128_0_2_3_1

/-- The weights as (tap row, tap column, input channel, output channel). -/
def wT (a1 : FVec Ideal S256x128x3x3 .f32) : FVec Ideal S3x3x128x256 .f32 :=
  transpose S3x3x128x256 [2, 3, 1, 0] a1 transposes_S256x128x3x3_S3x3x128x256_2_3_1_0

/-- The padding value of the integer-zero paddings: the integer 0 made a float. -/
def zpad : FVec Ideal S_ .f32 := sitofp .f32 (constantI S_ 32 0#32)

/-- The channel-minor activation framed by one ring of the padding value on the two spatial axes. -/
def xP (a0 : FVec Ideal S32x128x56x56 .f32) : FVec Ideal S32x58x58x128 .f32 :=
  pad S32x58x58x128 ![0, 1, 1, 0] ![0, 1, 1, 0] ![0, 0, 0, 0] (xT a0) zpad pads_S32x56x56x128_S32x58x58x128_000_110_110_000 h_S_

/-- The weights as nine (input channel, output channel) slices, tap 3·i + j, under a padding of no width. -/
def w9 (a1 : FVec Ideal S256x128x3x3 .f32) : FVec Ideal S9x128x256 .f32 :=
  pad S9x128x256 ![0, 0, 0] ![0, 0, 0] ![0, 0, 0] (shapeCast S9x128x256 (wT a1) shapeCasts_S3x3x128x256_S9x128x256) zpad
    pads_S9x128x256_S9x128x256_000_000_000 h_S_

/-- γ under a padding of no width (its padding value the float 1). -/
def gP (a2 : FVec Ideal S256 .f32) : FVec Ideal S256 .f32 :=
  pad S256 ![0] ![0] ![0] a2 (constant S_ .f32 0x3F800000#32) pads_S256_S256_000 h_S_

/-- β under a padding of no width. -/
def bP (a3 : FVec Ideal S256 .f32) : FVec Ideal S256 .f32 :=
  pad S256 ![0] ![0] ![0] a3 zpad pads_S256_S256_000 h_S_

/-! ## The fold of the statistics into the per-channel scale and shift rows -/

/-- The per-channel mean: the statistics' row 0 summed over the images, times the rounded reciprocal of the number
    of pixels. -/
def mean (S : FVec Ideal S32x2x256 .f32) : FVec Ideal S256 .f32 :=
  mulf (shapeCast S256 (extractStridedSlice S1x256 ![0, 0] (Host.reduceAdd S (constant S_ .f32 0x00000000#32) reducesTo_S32x2x256_S2x256_d0 h_S_) slices_S2x256_S1x256_0_0) shapeCasts_S1x256_S256)
    (broadcastInDim S256 ![] bcast_S_S256 (constant S_ .f32 0x37272F05#32))

/-- The per-channel mean of squares, likewise from row 1. -/
def meanSq (S : FVec Ideal S32x2x256 .f32) : FVec Ideal S256 .f32 :=
  mulf (shapeCast S256 (extractStridedSlice S1x256 ![1, 0] (Host.reduceAdd S (constant S_ .f32 0x00000000#32) reducesTo_S32x2x256_S2x256_d0 h_S_) slices_S2x256_S1x256_1_0) shapeCasts_S1x256_S256)
    (broadcastInDim S256 ![] bcast_S_S256 (constant S_ .f32 0x37272F05#32))

/-- The reciprocal standard deviation: rsqrt (max (E[y²] − E[y]², 0) + ε). -/
def invStd (S : FVec Ideal S32x2x256 .f32) : FVec Ideal S256 .f32 :=
  Host.rsqrt (addf (maximumf (subf (meanSq S) (mulf (mean S) (mean S))) (broadcastInDim S256 ![] bcast_S_S256 (constant S_ .f32 0x00000000#32)))
    (broadcastInDim S256 ![] bcast_S_S256 (constant S_ .f32 0x3727C5AC#32)))

/-- The scale row: γ · invStd. -/
def foldScale (S : FVec Ideal S32x2x256 .f32) (g : FVec Ideal S256 .f32) : FVec Ideal S1x256 .f32 :=
  shapeCast S1x256 (mulf g (invStd S)) shapeCasts_S256_S1x256

/-- The shift row: β − mean · γ · invStd. -/
def foldShift (S : FVec Ideal S32x2x256 .f32) (g be : FVec Ideal S256 .f32) : FVec Ideal S1x256 .f32 :=
  shapeCast S1x256 (subf be (mulf (mulf (mean S) g) (invStd S))) shapeCasts_S256_S1x256

/-! ## The paddings read at an index -/

/-- The integer zero made a float is zero. -/
theorem zpad_apply (i : S_.Idx) : zpad i = 0 := by
  show (((0#32 : BitVec 32).toInt : ℝ) : EReal) = 0
  simp

/-- A padding of no width on a vector changes nothing. -/
theorem pad0_vec {u : Shape} (a : FVec Ideal S256 .f32) (v : u.Idx → EReal) (hu : 0 < u.numel) :
    pad S256 ![0] ![0] ![0] a v pads_S256_S256_000 hu = a := by
  funext j
  refine pad_apply_of_inside _ _ _ a v pads_S256_S256_000 hu j j fun x => ?_
  match x with
  | ⟨0, _⟩ => show (j 0).val = 0 + (j 0).val * (0 + 1); omega

theorem gP_eq (a2 : FVec Ideal S256 .f32) : gP a2 = a2 := pad0_vec a2 _ _
theorem bP_eq (a3 : FVec Ideal S256 .f32) : bP a3 = a3 := pad0_vec a3 _ _

/-- The weight slices: slice 3·i + j at (ci, co) is the weight of tap (i, j). -/
theorem w9_apply (a1 : FVec Ideal S256x128x3x3 .f32) (i j : Fin 3) (ci : Fin 128) (co : Fin 256) :
    w9 a1 (ix3 ⟨i.val * 3 + j.val, by have := i.isLt; have := j.isLt; omega⟩ ci co) = wT a1 (ix4 i j ci co) := by
  unfold w9
  refine (pad_apply_of_inside _ _ _ _ _ pads_S9x128x256_S9x128x256_000_000_000 h_S_ _
    (ix3 ⟨i.val * 3 + j.val, by have := i.isLt; have := j.isLt; omega⟩ ci co) fun x => ?_).trans ?_
  · match x with
    | ⟨0, _⟩ => show i.val * 3 + j.val = 0 + (i.val * 3 + j.val) * (0 + 1); omega
    | ⟨1, _⟩ => show ci.val = 0 + ci.val * (0 + 1); omega
    | ⟨2, _⟩ => show co.val = 0 + co.val * (0 + 1); omega
  · refine shapeCast_apply _ _ _ (ix4 i j ci co) ?_
    rw [Shape.rowMajor_val_four, Shape.rowMajor_val_three]
    rfl

/-- The framed activation at padded coordinates: the activation one row up and one column left inside the frame,
    zero on it. -/
theorem xP_apply (a0 : FVec Ideal S32x128x56x56 .f32) (b : Fin 32) (hh ww : Fin 58) (ci : Fin 128) :
    xP a0 (ix4 b hh ww ci) = Cert.Spec.xpad (xT a0) b hh.val ww.val ci := by
  unfold xP Cert.Spec.xpad
  by_cases hin : (1 ≤ hh.val ∧ hh.val ≤ 56) ∧ (1 ≤ ww.val ∧ ww.val ≤ 56)
  · rw [dif_pos hin]
    refine pad_apply_of_inside _ _ _ _ _ pads_S32x56x56x128_S32x58x58x128_000_110_110_000 h_S_ _
      (ix4 b ⟨hh.val - 1, by omega⟩ ⟨ww.val - 1, by omega⟩ ci) fun x => ?_
    match x with
    | ⟨0, _⟩ => show b.val = 0 + b.val * (0 + 1); omega
    | ⟨1, _⟩ => show hh.val = 1 + (hh.val - 1) * (0 + 1); omega
    | ⟨2, _⟩ => show ww.val = 1 + (ww.val - 1) * (0 + 1); omega
    | ⟨3, _⟩ => show ci.val = 0 + ci.val * (0 + 1); omega
  · rw [dif_neg hin]
    have hh58 := hh.isLt
    have ww58 := ww.isLt
    by_cases h1 : 1 ≤ hh.val ∧ hh.val ≤ 56
    · have h2 : ¬(1 ≤ ww.val ∧ ww.val ≤ 56) := fun h => hin ⟨h1, h⟩
      refine (pad_apply_of_not_inside _ _ _ _ _ pads_S32x56x56x128_S32x58x58x128_000_110_110_000 h_S_ _ (2 : Fin 4) ?_).trans (zpad_apply _)
      show ¬(1 ≤ ww.val ∧ (ww.val - 1) % (0 + 1) = 0 ∧ (ww.val - 1) / (0 + 1) < 56)
      omega
    · refine (pad_apply_of_not_inside _ _ _ _ _ pads_S32x56x56x128_S32x58x58x128_000_110_110_000 h_S_ _ (1 : Fin 4) ?_).trans (zpad_apply _)
      show ¬(1 ≤ hh.val ∧ (hh.val - 1) % (0 + 1) = 0 ∧ (hh.val - 1) / (0 + 1) < 56)
      omega

variable (m : (ℓ : Loc nD τ sig) → Buf (Elt Ideal) ℓ) (ρ : Dev nD → PrngReg)

/-! ## Before the first launch -/

set_option maxHeartbeats 1000000 in
theorem v1_eq (c : Dev nD) : V8 m ρ c main_v1 = xP (m ((c : Thread nD τ).loc main_arg0)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v1) = _
  simp only [hostOps0, hostOps0_1, hostOps0_2, hostOps0_3, hostOps0_4, hostOps0_5, hostOps0_6, hostOps0_7]
  after_results
  rfl

set_option maxHeartbeats 1000000 in
theorem v4_eq (c : Dev nD) : V8 m ρ c main_v4 = w9 (m ((c : Thread nD τ).loc main_arg1)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v4) = _
  simp only [hostOps0, hostOps0_1, hostOps0_2, hostOps0_3, hostOps0_4, hostOps0_5, hostOps0_6, hostOps0_7]
  after_results
  rfl

set_option maxHeartbeats 1000000 in
theorem v5_eq (c : Dev nD) : V8 m ρ c main_v5 = gP (m ((c : Thread nD τ).loc main_arg2)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v5) = _
  simp only [hostOps0, hostOps0_1, hostOps0_2, hostOps0_3, hostOps0_4, hostOps0_5, hostOps0_6, hostOps0_7]
  after_results
  rfl

set_option maxHeartbeats 1000000 in
theorem v6_eq (c : Dev nD) : V8 m ρ c main_v6 = bP (m ((c : Thread nD τ).loc main_arg3)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v6) = _
  simp only [hostOps0, hostOps0_1, hostOps0_2, hostOps0_3, hostOps0_4, hostOps0_5, hostOps0_6, hostOps0_7]
  after_results
  rfl

/-! ## Between the launches -/

theorem v5_at9 (c : Dev nD) : V9 m ρ c main_v5 = V8 m ρ c main_v5 := W9_of_ne m ρ c main_v5 (by decide)
theorem v6_at9 (c : Dev nD) : V9 m ρ c main_v6 = V8 m ρ c main_v6 := W9_of_ne m ρ c main_v6 (by decide)

set_option maxHeartbeats 1000000 in
theorem v25_eq (c : Dev nD) : V10 m ρ c main_v25 = foldScale (V9 m ρ c main_v7_1) (V9 m ρ c main_v5) := by
  show StableHlo.after hostOps1 (W9 m ρ c) (Proc.devRef .tc main_v25) = _
  simp only [hostOps1]
  after_results_simp
  rfl

set_option maxHeartbeats 1000000 in
theorem v29_eq (c : Dev nD) : V10 m ρ c main_v29 = foldShift (V9 m ρ c main_v7_1) (V9 m ρ c main_v5) (V9 m ρ c main_v6) := by
  show StableHlo.after hostOps1 (W9 m ρ c) (Proc.devRef .tc main_v29) = _
  simp only [hostOps1]
  after_results_simp
  rfl

set_option maxHeartbeats 1000000 in
theorem v7_0_kept (c : Dev nD) : V10 m ρ c main_v7_0 = V9 m ρ c main_v7_0 := by
  show StableHlo.after hostOps1 (W9 m ρ c) (Proc.devRef .tc main_v7_0) = _
  simp only [hostOps1]
  after_results_simp

/-! ## After the second launch -/

theorem v33_eq (c : Dev nD) : W12 m ρ c (Proc.devRef .tc main_v33)
    = transpose S32x256x56x56 [0, 3, 1, 2]
        (shapeCast S32x56x56x256 (shapeCast S32x3136x256 (V11 m ρ c main_v30) shapeCasts_S100352x256_S32x3136x256)
          shapeCasts_S32x3136x256_S32x56x56x256)
        transposes_S32x56x56x256_S32x256x56x56_0_3_1_2 := by
  show StableHlo.after hostOps2 (W11 m ρ c) (Proc.devRef .tc main_v33) = _
  simp only [hostOps2]
  after_results
  rfl

end Cert.ReferenceIdeal.Host

end
-- ==== Proof.RAcc.lean ====
import proofs.«172489_g2000705972228531_pallasbulk_146_4_alg».proof.Proof.Gen.ReferenceIdeal.Frame
import proofs.«172489_g2000705972228531_pallasbulk_146_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Acc

open Idealize.ShloMosaic Idealize.ShloMosaic.ValueIdx Idealize.ShloMosaic.TcCoe Idealize.SL.Sem
open Cert.ReferenceIdeal Cert.ReferenceIdeal.Gen

/-- The accumulator as the body computes it from an image's framed block x0 and the nine weight slices x1: nine
    matrix products, one per tap — window (i, j) of the framed block against weight slice 3·i + j — added from the
    left. -/
def accOf (x0 : Vec Ideal S1x58x58x128 .f32) (x1 : Vec Ideal S9x128x256 .f32) : FVec Ideal S3136x256 .f32 :=
  k0_pay1 (k0_pay5 (k0_pay4 (View.ld x0 r0_0) (View.ld x1 r0_1) (View.ld x0 r0_2) (View.ld x1 r0_3) (View.ld x0 r0_4) (View.ld x1 r0_5) (View.ld x0 r0_6) (View.ld x1 r0_7)) (View.ld x0 r0_8) (View.ld x1 r0_9) (View.ld x0 r0_10) (View.ld x1 r0_11) (View.ld x0 r0_12) (View.ld x1 r0_13) (View.ld x0 r0_14) (View.ld x1 r0_15)) (View.ld x0 r0_16) (View.ld x1 r0_17)

end Cert.ReferenceIdeal.Acc

end
-- ==== Proof.RRegion0.lean ====
import proofs.«172489_g2000705972228531_pallasbulk_146_4_alg».proof.Proof.Gen.ReferenceIdeal.Frame
import proofs.«172489_g2000705972228531_pallasbulk_146_4_alg».proof.Proof.Spec
import proofs.«172489_g2000705972228531_pallasbulk_146_4_alg».proof.Proof.RAcc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Region0

open Idealize.ShloMosaic Idealize.ShloMosaic.ValueIdx Idealize.ShloMosaic.TcCoe Idealize.SL.Sem
open Cert.ReferenceIdeal Cert.ReferenceIdeal.Gen

open Cert.ReferenceIdeal.Acc

/- The first launch, one grid point per image b: the point loads image b's block of the framed activation array
   and the nine weight slices, and writes back the accumulator (as rows 3136·b … 3136·b + 3135 of the
   pre-normalisation array) and the accumulator's two column sums (as block b of the statistics array). Stated at
   the contents V the launch is entered from. -/

variable (V : (c : Dev nD) → (b : Ref sig .tc) → Buf (Elt Ideal) ((c : Thread nD τ).loc b))

/-- Image b's block of the framed activation array. -/
def xblk (c : Dev nD) (b : Fin 32) : Vec Ideal S1x58x58x128 .f32 := fun y => V c main_v1 (ix4 b (y 1) (y 2) (y 3))

/-- The accumulator of image b. -/
def acc (c : Dev nD) (b : Fin 32) : FVec Ideal S3136x256 .f32 := accOf (xblk V c b) (V c main_v4)

/-- The all-zero offset of a rank-2 block, however the zeros are spelt. -/
private theorem hz2 : (![0, 0] : Fin 2 → Nat) = fun _ => 0 := funext fun a => by fin_cases a <;> rfl

/-- The index maps over the grid's 32 points: window 0's block index is (b, 0, 0, 0), window 1's (0, 0, 0), window 2's
    (b, 0), window 3's (b, 0, 0). -/
private theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as an image number, and back. -/
private def img (t : Fin cfg0.N) : Fin 32 := ⟨t.val, t.isLt.trans_eq N_0⟩
private def pt (b : Fin 32) : Fin cfg0.N := ⟨b.val, b.isLt.trans_eq N_0.symm⟩

/-- Window 0's block at point t is image t of the framed activation array: the block's coordinate in the array is
    index × size + the coordinate inside the block, and the index is (t, 0, 0, 0). -/
private theorem iblk0_0_eq (c : Dev nD) (t : Fin cfg0.N) : iblk0 V c 0 t = xblk V c (img t) := by
  obtain ⟨e0, e1, e2, e3, -⟩ := idx_facts t
  funext y
  unfold iblk0 xblk
  rw [View.read_apply]
  show V c main_v1 _ = V c main_v1 _
  congr 1
  funext a; apply Fin.ext
  match a with
  | ⟨0, _⟩ => show win0_0.index t (0 : Fin 4) * 1 + 1 * (y 0).val = t.val; have h : (y 0).val < 1 := (y 0).isLt; omega
  | ⟨1, _⟩ => show win0_0.index t (1 : Fin 4) * 58 + 1 * (y 1).val = (y 1).val; omega
  | ⟨2, _⟩ => show win0_0.index t (2 : Fin 4) * 58 + 1 * (y 2).val = (y 2).val; omega
  | ⟨3, _⟩ => show win0_0.index t (3 : Fin 4) * 128 + 1 * (y 3).val = (y 3).val; omega

/-- Window 1's block at every point is the whole weight array: its index is (0, 0, 0). -/
private theorem iblk0_1_eq (c : Dev nD) (t : Fin cfg0.N) : iblk0 V c 1 t = V c main_v4 := by
  obtain ⟨-, -, -, -, e0, e1, e2, -⟩ := idx_facts t
  funext y
  unfold iblk0
  rw [View.read_apply]
  show V c main_v4 _ = V c main_v4 y
  congr 1
  funext a; apply Fin.ext
  match a with
  | ⟨0, _⟩ => show win0_1.index t (0 : Fin 3) * 9 + 1 * (y 0).val = (y 0).val; omega
  | ⟨1, _⟩ => show win0_1.index t (1 : Fin 3) * 128 + 1 * (y 1).val = (y 1).val; omega
  | ⟨2, _⟩ => show win0_1.index t (2 : Fin 3) * 256 + 1 * (y 2).val = (y 2).val; omega

/-- The pre-normalisation array as one function of the entry contents: row R is row R % 3136 of image R / 3136's accumulator. -/
private def Gy (c : Dev nD) : S100352x256.Idx → Elt Ideal .f32 := fun i =>
  acc V c ⟨(i 0).val / 3136, by have h : (i 0).val < 100352 := (i 0).isLt; omega⟩ (ix2 ⟨(i 0).val % 3136, Nat.mod_lt _ (by decide)⟩ (i 1))

/-- At row b·3136 + r the quotient by 3136 is b and the remainder r. -/
private theorem Gy_at (c : Dev nD) (b : Fin 32) (j : S3136x256.Idx) (i : S100352x256.Idx)
    (h0 : (i 0).val = b.val * 3136 + (j 0).val) (h1 : (i 1).val = (j 1).val) : Gy V c i = acc V c b j := by
  have hj : (j 0).val < 3136 := (j 0).isLt
  unfold Gy
  have eb : (⟨(i 0).val / 3136, by have h : (i 0).val < 100352 := (i 0).isLt; omega⟩ : Fin 32) = b := Fin.ext (by show (i 0).val / 3136 = b.val; omega)
  have ej : (ix2 ⟨(i 0).val % 3136, Nat.mod_lt _ (by decide)⟩ (i 1) : S3136x256.Idx) = j := by
    funext a; apply Fin.ext
    match a with
    | ⟨0, _⟩ => show (i 0).val % 3136 = (j 0).val; omega
    | ⟨1, _⟩ => exact h1
  rw [eb, ej]

/-- What point t writes back through window 2 is block t of that array: one whole-block store of the accumulator. -/
private theorem flushed2_eq (c : Dev nD) (t : Fin cfg0.N) :
    (dat0 V c).flushed 2 t = ((cfg0.win 2).blk t).view.read (Elt Ideal) (Gy V c) := by
  obtain ⟨-, -, -, -, -, -, -, e0, e1, -⟩ := idx_facts t
  show (cfg0.win 2).cut (grid0.coords t) ((dat0 V c).after 2 t) = _
  rw [after0_2]
  unfold out0_2
  rw [View.canon_unit_zero hz2]
  funext j
  rw [View.read_apply]
  show accOf (iblk0 V c 0 t) (iblk0 V c 1 t) j = _
  rw [iblk0_0_eq, iblk0_1_eq]
  refine (Gy_at V c (img t) j _ ?_ ?_).symm
  · show win0_2.index t (0 : Fin 2) * 3136 + 1 * (j 0).val = t.val * 3136 + (j 0).val; omega
  · show win0_2.index t (1 : Fin 2) * 256 + 1 * (j 1).val = (j 1).val; omega

/-- An index of the pre-normalisation array is in point t's block iff each coordinate is in the block's range. -/
private theorem mem_blk2 (t : Fin cfg0.N) (i : S100352x256.Idx) :
    i ∈ ((cfg0.win 2).blk t).view.set ↔ ∀ a : Fin 2, win0_2.index t a * S3136x256.size a ≤ (i a).val ∧ (i a).val < win0_2.index t a * S3136x256.size a + S3136x256.size a := by
  show i ∈ ((View.whole main_v7_0).slice (win0_2.rect t)).set ↔ _
  rw [View.set_slice_whole, Rect.mem_set_unit]
  exact Iff.rfl

/-- The statistics block of an accumulator A: row 0 its column sums, row 1 the column sums of its squares. -/
private def statBlk (A : FVec Ideal S3136x256 .f32) : S1x2x256.Idx → Elt Ideal .f32 := fun y =>
  if (y 1).val = 0 then ∑ r : Fin 3136, A (ix2 r (y 2)) else ∑ r : Fin 3136, A (ix2 r (y 2)) * A (ix2 r (y 2))

/-- Row r inserted on the reduced axis in front of column q is the index (r, q). -/
private theorem lift_eq (q : S256.Idx) (r : Fin 3136) : (reduces_S3136x256_S256.lift q r : S3136x256.Idx) = ix2 r (q 0) := by
  funext a
  match a with
  | ⟨0, _⟩ => rfl
  | ⟨1, _⟩ => rfl

/-- The first statistics payload at column q: the reduction over the row axis is the sum over the rows, the two casts
    around it only add unit axes. -/
private theorem pay2_apply (v54 : FVec Ideal S3136x256 .f32) (v55 : Vec Ideal S1x56x56x128 .f32) (v58 : Vec Ideal S1x128x256 .f32)
    (x : S1x1x256.Idx) : k0_pay2 v54 v55 v58 x = ∑ r : Fin 3136, k0_pay1 v54 v55 v58 (ix2 r (x 2)) := by
  unfold k0_pay2
  refine (shapeCast_addUnit_apply ![1, 256] _ _ x).trans ?_
  refine (shapeCast_addUnit_apply ![256] _ _ _).trans ?_
  refine (Ideal.multiReduction_add_single _ _ _ _ _ _).trans ?_
  exact Finset.sum_congr rfl fun r _ => congrArg (k0_pay1 v54 v55 v58) (lift_eq _ r)

/-- The second at column q: the same of the accumulator's square. -/
private theorem pay3_apply (v54 : FVec Ideal S3136x256 .f32) (v55 : Vec Ideal S1x56x56x128 .f32) (v58 : Vec Ideal S1x128x256 .f32)
    (x : S1x1x256.Idx) :
    k0_pay3 v54 v55 v58 x = ∑ r : Fin 3136, k0_pay1 v54 v55 v58 (ix2 r (x 2)) * k0_pay1 v54 v55 v58 (ix2 r (x 2)) := by
  unfold k0_pay3
  refine (shapeCast_addUnit_apply ![1, 256] _ _ x).trans ?_
  refine (shapeCast_addUnit_apply ![256] _ _ _).trans ?_
  refine (Ideal.multiReduction_add_single _ _ _ _ _ _).trans ?_
  exact Finset.sum_congr rfl fun r _ =>
    congrArg (fun i => k0_pay1 v54 v55 v58 i * k0_pay1 v54 v55 v58 i) (lift_eq _ r)

/-- The statistics buffer after the body: the two row stores, read at any index, are the statistics block of the
    accumulator — row 1 (the store at offset (0, 1, 0)) the squares' sums, row 0 (at offset (0, 0, 0)) the sums. -/
private theorem out3_apply (v54 : FVec Ideal S3136x256 .f32) (v55 : Vec Ideal S1x56x56x128 .f32) (v58 : Vec Ideal S1x128x256 .f32)
    (y : S1x2x256.Idx) :
    View.canon [⟨r0_20, k0_pay3 v54 v55 v58⟩, ⟨r0_19, k0_pay2 v54 v55 v58⟩] y = statBlk (k0_pay1 v54 v55 v58) y := by
  refine View.canon_apply_of_pieces (statBlk (k0_pay1 v54 v55 v58)) _ ?_ y (cover0_3 _ _ y)
  intro p hp x
  simp only [List.mem_cons, List.not_mem_nil, or_false] at hp
  rcases hp with rfl | rfl
  · show k0_pay3 v54 v55 v58 x = statBlk (k0_pay1 v54 v55 v58) (r0_20.emb x)
    have h1 : ¬ ((r0_20.emb x) 1).val = 0 := by
      show ¬ (1 + 1 * (x 1).val = 0); omega
    have h2 : (r0_20.emb x) 2 = x 2 := Fin.ext (by show 0 + 1 * (x 2).val = (x 2).val; omega)
    unfold statBlk
    rw [if_neg h1, h2]
    exact pay3_apply v54 v55 v58 x
  · show k0_pay2 v54 v55 v58 x = statBlk (k0_pay1 v54 v55 v58) (r0_19.emb x)
    have hx : (x 1).val < 1 := (x 1).isLt
    have h1 : ((r0_19.emb x) 1).val = 0 := by
      show 0 + 1 * (x 1).val = 0; omega
    have h2 : (r0_19.emb x) 2 = x 2 := Fin.ext (by show 0 + 1 * (x 2).val = (x 2).val; omega)
    unfold statBlk
    rw [if_pos h1, h2]
    exact pay2_apply v54 v55 v58 x

/-- The statistics array as one function of the entry contents. -/
private def Gs (c : Dev nD) : S32x2x256.Idx → Elt Ideal .f32 := fun i =>
  if (i 1).val = 0 then ∑ r : Fin 3136, acc V c (i 0) (ix2 r (i 2))
  else ∑ r : Fin 3136, acc V c (i 0) (ix2 r (i 2)) * acc V c (i 0) (ix2 r (i 2))

/-- At (b, h, q) it is image b's statistics block at (0, h, q). -/
private theorem Gs_at (c : Dev nD) (b : Fin 32) (j : S1x2x256.Idx) : Gs V c (ix3 b (j 1) (j 2)) = statBlk (acc V c b) j := rfl

/-- What point t writes back through window 3 is block t of that array. -/
private theorem flushed3_eq (c : Dev nD) (t : Fin cfg0.N) :
    (dat0 V c).flushed 3 t = ((cfg0.win 3).blk t).view.read (Elt Ideal) (Gs V c) := by
  obtain ⟨-, -, -, -, -, -, -, -, -, e0, e1, e2⟩ := idx_facts t
  show (cfg0.win 3).cut (grid0.coords t) ((dat0 V c).after 3 t) = _
  rw [after0_3]
  unfold out0_3
  funext j
  rw [View.read_apply]
  refine (out3_apply _ _ _ j).trans ?_
  show statBlk (accOf (iblk0 V c 0 t) (iblk0 V c 1 t)) j = _
  rw [iblk0_0_eq, iblk0_1_eq]
  have hj : (j 0).val < 1 := (j 0).isLt
  have he : ((cfg0.win 3).blk t).view.emb j = ix3 (img t) (j 1) (j 2) := by
    funext a; apply Fin.ext
    match a with
    | ⟨0, _⟩ => show win0_3.index t (0 : Fin 3) * 1 + 1 * (j 0).val = t.val; omega
    | ⟨1, _⟩ => show win0_3.index t (1 : Fin 3) * 2 + 1 * (j 1).val = (j 1).val; omega
    | ⟨2, _⟩ => show win0_3.index t (2 : Fin 3) * 256 + 1 * (j 2).val = (j 2).val; omega
  rw [he]
  exact (Gs_at V c (img t) j).symm

/-- An index of the statistics array is in point t's block iff each coordinate is in the block's range. -/
private theorem mem_blk3 (t : Fin cfg0.N) (i : S32x2x256.Idx) :
    i ∈ ((cfg0.win 3).blk t).view.set ↔ ∀ a : Fin 3, win0_3.index t a * S1x2x256.size a ≤ (i a).val ∧ (i a).val < win0_3.index t a * S1x2x256.size a + S1x2x256.size a := by
  show i ∈ ((View.whole main_v7_1).slice (win0_3.rect t)).set ↔ _
  rw [View.set_slice_whole, Rect.mem_set_unit]
  exact Iff.rfl

/-- The pre-normalisation array after the launch: row R holds image R / 3136's accumulator at row R % 3136. -/
theorem arr_y (c : Dev nD) :
    (dat0 V c).arrAt 2 cfg0.N = fun (i : S100352x256.Idx) =>
      acc V c ⟨(i 0).val / 3136, by have h : (i 0).val < 100352 := (i 0).isLt; omega⟩ (ix2 ⟨(i 0).val % 3136, Nat.mod_lt _ (by decide)⟩ (i 1)) := by
  refine (dat0 V c).arrAt_eq_of_cover 2 (Gy V c) (fun t _ => flushed2_eq V c t) fun i => ?_
  have hi0 : (i 0).val < 100352 := (i 0).isLt
  have hi1 : (i 1).val < 256 := (i 1).isLt
  refine ⟨pt ⟨(i 0).val / 3136, by omega⟩, flush0_2 _, ?_⟩
  obtain ⟨-, -, -, -, -, -, -, e0, e1, -⟩ := idx_facts (pt ⟨(i 0).val / 3136, by omega⟩)
  rw [mem_blk2]
  intro a
  match a with
  | ⟨0, _⟩ =>
    show win0_2.index (pt ⟨(i 0).val / 3136, by omega⟩) (0 : Fin 2) * 3136 ≤ (i 0).val ∧ (i 0).val < win0_2.index (pt ⟨(i 0).val / 3136, by omega⟩) (0 : Fin 2) * 3136 + 3136
    rw [e0]; show (i 0).val / 3136 * 3136 ≤ (i 0).val ∧ (i 0).val < (i 0).val / 3136 * 3136 + 3136; omega
  | ⟨1, _⟩ =>
    show win0_2.index (pt ⟨(i 0).val / 3136, by omega⟩) (1 : Fin 2) * 256 ≤ (i 1).val ∧ (i 1).val < win0_2.index (pt ⟨(i 0).val / 3136, by omega⟩) (1 : Fin 2) * 256 + 256
    rw [e1]; omega

/-- The statistics array after the launch: row 0 of image b holds the accumulator's column sums, row 1 the column
    sums of its squares. -/
theorem arr_stats (c : Dev nD) :
    (dat0 V c).arrAt 3 cfg0.N = fun i =>
      if (i 1).val = 0 then ∑ r : Fin 3136, acc V c (i 0) (ix2 r (i 2))
      else ∑ r : Fin 3136, acc V c (i 0) (ix2 r (i 2)) * acc V c (i 0) (ix2 r (i 2)) := by
  refine (dat0 V c).arrAt_eq_of_cover 3 (Gs V c) (fun t _ => flushed3_eq V c t) fun i => ?_
  have hi0 : (i 0).val < 32 := (i 0).isLt
  have hi1 : (i 1).val < 2 := (i 1).isLt
  have hi2 : (i 2).val < 256 := (i 2).isLt
  refine ⟨pt ⟨(i 0).val, hi0⟩, flush0_3 _, ?_⟩
  obtain ⟨-, -, -, -, -, -, -, -, -, e0, e1, e2⟩ := idx_facts (pt ⟨(i 0).val, hi0⟩)
  rw [mem_blk3]
  intro a
  match a with
  | ⟨0, _⟩ =>
    show win0_3.index (pt ⟨(i 0).val, hi0⟩) (0 : Fin 3) * 1 ≤ (i 0).val ∧ (i 0).val < win0_3.index (pt ⟨(i 0).val, hi0⟩) (0 : Fin 3) * 1 + 1
    rw [e0]; show (i 0).val * 1 ≤ (i 0).val ∧ (i 0).val < (i 0).val * 1 + 1; omega
  | ⟨1, _⟩ =>
    show win0_3.index (pt ⟨(i 0).val, hi0⟩) (1 : Fin 3) * 2 ≤ (i 1).val ∧ (i 1).val < win0_3.index (pt ⟨(i 0).val, hi0⟩) (1 : Fin 3) * 2 + 2
    rw [e1]; omega
  | ⟨2, _⟩ =>
    show win0_3.index (pt ⟨(i 0).val, hi0⟩) (2 : Fin 3) * 256 ≤ (i 2).val ∧ (i 2).val < win0_3.index (pt ⟨(i 0).val, hi0⟩) (2 : Fin 3) * 256 + 256
    rw [e2]; omega

end Cert.ReferenceIdeal.Region0

end
-- ==== Proof.RRegion1.lean ====
import proofs.«172489_g2000705972228531_pallasbulk_146_4_alg».proof.Proof.Gen.ReferenceIdeal.Frame
import proofs.«172489_g2000705972228531_pallasbulk_146_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Region1

open Idealize.ShloMosaic Idealize.ShloMosaic.ValueIdx Idealize.ShloMosaic.TcCoe Idealize.SL.Sem
open Cert.ReferenceIdeal Cert.ReferenceIdeal.Gen

/- The second launch, 98 grid points of 1024 rows each: the point loads its rows of the pre-normalisation array and
   the per-channel scale and shift rows, and writes back the affine map followed by the hard-swish, entry by entry.
   Stated at the contents V the launch is entered from. -/

section Layout
variable {α : Type}

/-- A [1, 256] row spread over the 1024 rows reads, at (r, co), the row at (0, co). -/
theorem row_bcast (v : S1x256.Idx → α) (h : S1x256.Broadcasts S1024x256) (r : Fin 1024) (co : Fin 256) :
    broadcastTo S1024x256 v h (ix2 r co) = v (ix2 0 co) := by
  refine broadcastTo_apply v h (ix2 r co) (ix2 0 co) ?_
  intro a; match a with | ⟨0, _⟩ => rfl | ⟨1, _⟩ => rfl

end Layout

/-- The body's value at entry (r, co) of its block: the affine map and hard-swish of the loaded entry and the two
    row entries of channel co. -/
theorem pay_apply (x0 : Vec Ideal S1024x256 .f32) (x1 : Vec Ideal S1x256 .f32) (x2 : Vec Ideal S1x256 .f32)
    (r : Fin 1024) (co : Fin 256) :
    k1_pay1 x0 x1 x2 (ix2 r co) = Cert.Spec.bnhsw (x0 (ix2 r co)) (x1 (ix2 0 co)) (x2 (ix2 0 co)) := by
  unfold k1_pay1 Cert.Spec.bnhsw
  simp only [mulf_apply, addf_apply, maximumf_apply, minimumf_apply, broadcast_apply, row_bcast, shapeCast_self]
  rfl

theorem hz2 : (![0, 0] : Fin 2 → Nat) = fun _ => 0 := funext fun a => by fin_cases a <;> rfl

/-- The block index maps over the 98 grid points: the input block moves with the output block, whose index is the point
    t on the row axis and zero on the channel axis; the two rows have block index zero. -/
theorem idx_facts : ∀ t : Fin cfg1.N,
    win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the output array lies in point t's block iff each coordinate lies in the block's range on its axis. -/
theorem mem_blk (t : Fin cfg1.N) (i : S100352x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v30).slice (win1_3.rect t)).set ↔ _
  rw [View.set_slice_whole, Rect.mem_set_unit]
  exact Iff.rfl

/-- Every entry (R, co) of the output array is written back by the point R / 1024, whose block holds rows
    1024 · (R / 1024) up to the next multiple of 1024. -/
theorem cover (i : S100352x256.Idx) :
    ∃ t : Fin cfg1.N, (cfg1.win 3).flush t = true ∧ i ∈ ((cfg1.win 3).blk t).view.set := by
  have h0 : (i 0).val < 100352 := (i 0).isLt
  have h1 : (i 1).val < 256 := (i 1).isLt
  have hN : cfg1.N = 98 := N_1
  have key : ∀ t : Fin cfg1.N, t.val = (i 0).val / 1024 → i ∈ ((cfg1.win 3).blk t).view.set := by
    intro t ht
    obtain ⟨-, -, -, -, -, -, o0, o1⟩ := idx_facts t
    rw [mem_blk]
    intro a
    match a with
    | ⟨0, _⟩ =>
      show win1_3.index t (0 : Fin 2) * 1024 ≤ (i 0).val ∧ (i 0).val < win1_3.index t (0 : Fin 2) * 1024 + 1024
      omega
    | ⟨1, _⟩ =>
      show win1_3.index t (1 : Fin 2) * 256 ≤ (i 1).val ∧ (i 1).val < win1_3.index t (1 : Fin 2) * 256 + 256
      omega
  exact ⟨⟨(i 0).val / 1024, by omega⟩, flush1_3 _, key _ rfl⟩

variable (V : (c : Dev nD) → (b : Ref sig .tc) → Buf (Elt Ideal) ((c : Thread nD τ).loc b))

/-- What grid point t writes back is block t of the whole-array function: the block of the pre-normalisation array sits
    at the same place as the output's block, and the two rows are read whole, so entry (r, co) of the body's value is
    the function at array entry (1024 · t + r, co). -/
theorem flushed_eq (c : Dev nD) (t : Fin cfg1.N) :
    (dat1 V c).flushed 3 t = ((cfg1.win 3).blk t).view.read (Elt Ideal) (fun i =>
      Cert.Spec.bnhsw (V c main_v7_0 i) (V c main_v25 (ix2 0 (i 1))) (V c main_v29 (ix2 0 (i 1)))) := by
  show (cfg1.win 3).cut (grid1.coords t) ((dat1 V c).after 3 t) = _
  rw [after1_3]
  unfold out1_3
  rw [View.canon_unit_zero hz2]
  simp only [View.ld_unit_zero (S := S1024x256) hz2, View.ld_unit_zero (S := S1x256) hz2]
  obtain ⟨e0, e1, a0, a1, b0, b1, o0, o1⟩ := idx_facts t
  funext j
  obtain ⟨r, co, rfl⟩ : ∃ (r : Fin 1024) (co : Fin 256), j = ix2 r co := ⟨j 0, j 1, eq_ix2 j⟩
  show k1_pay1 (iblk1 V c 0 t) (iblk1 V c 1 t) (iblk1 V c 2 t) (ix2 r co) = _
  refine (pay_apply _ _ _ r co).trans ?_
  show Cert.Spec.bnhsw (V c main_v7_0 (((cfg1.win 0).blk t).view.emb (ix2 r co)))
        (V c main_v25 (((cfg1.win 1).blk t).view.emb (ix2 0 co))) (V c main_v29 (((cfg1.win 2).blk t).view.emb (ix2 0 co)))
      = Cert.Spec.bnhsw (V c main_v7_0 (((cfg1.win 3).blk t).view.emb (ix2 r co)))
        (V c main_v25 (ix2 0 ((((cfg1.win 3).blk t).view.emb (ix2 r co)) 1)))
        (V c main_v29 (ix2 0 ((((cfg1.win 3).blk t).view.emb (ix2 r co)) 1)))
  have hr : r.val < 1024 := r.isLt
  have hco : co.val < 256 := co.isLt
  have h0 : ((cfg1.win 0).blk t).view.emb (ix2 r co) = ((cfg1.win 3).blk t).view.emb (ix2 r co) := by
    funext a; apply Fin.ext
    match a with
    | ⟨0, _⟩ => show win1_0.index t (0 : Fin 2) * 1024 + 1 * r.val = win1_3.index t (0 : Fin 2) * 1024 + 1 * r.val; omega
    | ⟨1, _⟩ => show win1_0.index t (1 : Fin 2) * 256 + 1 * co.val = win1_3.index t (1 : Fin 2) * 256 + 1 * co.val; omega
  have h1 : ((cfg1.win 1).blk t).view.emb (ix2 0 co) = ix2 0 ((((cfg1.win 3).blk t).view.emb (ix2 r co)) 1) := by
    funext a; apply Fin.ext
    match a with
    | ⟨0, _⟩ => show win1_1.index t (0 : Fin 2) * 1 + 1 * 0 = 0; omega
    | ⟨1, _⟩ => show win1_1.index t (1 : Fin 2) * 256 + 1 * co.val = win1_3.index t (1 : Fin 2) * 256 + 1 * co.val; omega
  have h2 : ((cfg1.win 2).blk t).view.emb (ix2 0 co) = ix2 0 ((((cfg1.win 3).blk t).view.emb (ix2 r co)) 1) := by
    funext a; apply Fin.ext
    match a with
    | ⟨0, _⟩ => show win1_2.index t (0 : Fin 2) * 1 + 1 * 0 = 0; omega
    | ⟨1, _⟩ => show win1_2.index t (1 : Fin 2) * 256 + 1 * co.val = win1_3.index t (1 : Fin 2) * 256 + 1 * co.val; omega
  rw [h0, h1, h2]
  rfl

/-- The output array after the launch: entry (R, co) is the hard-swish of y(R, co) · scale(co) + shift(co). -/
theorem arr_out (c : Dev nD) :
    (dat1 V c).arrAt 3 cfg1.N = fun i =>
      Cert.Spec.bnhsw (V c main_v7_0 i) (V c main_v25 (ix2 0 (i 1))) (V c main_v29 (ix2 0 (i 1))) :=
  (dat1 V c).arrAt_eq_of_cover 3 _ (fun t _ => flushed_eq V c t) cover

end Cert.ReferenceIdeal.Region1

end
-- ==== Proof.RConv.lean ====
import proofs.«172489_g2000705972228531_pallasbulk_146_4_alg».proof.Proof.Gen.ReferenceIdeal.Frame
import proofs.«172489_g2000705972228531_pallasbulk_146_4_alg».proof.Proof.Spec
import proofs.«172489_g2000705972228531_pallasbulk_146_4_alg».proof.Proof.RAcc
import proofs.«172489_g2000705972228531_pallasbulk_146_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Conv

open Idealize.ShloMosaic Idealize.ShloMosaic.ValueIdx Idealize.ShloMosaic.TcCoe Idealize.SL.Sem
open Cert.ReferenceIdeal Cert.ReferenceIdeal.Gen

open Cert.ReferenceIdeal.Acc

/-- The matrix product both programs' taps use is a plain [3136, 128] · [128, 256] product: no batch axis, axis 1 of
    the left operand contracted against axis 0 of the right. -/
theorem plain_dot : Cert.PlainDot.Plain dot_S3136x128_S128x256_S3136x256_1_0_0_1_n_n :=
  ⟨rfl, rfl, rfl, rfl, rfl, rfl⟩

/-- The window [1, 56, 56, 128] cast to [56, 56, 128] and then to the matrix [3136, 128] reads, at (r, ci), the window
    at (0, r / 56, r % 56, ci): both casts keep the row-major position, and r = (r / 56) · 56 + r % 56. -/
theorem win_apply (v : Vec Ideal S1x56x56x128 .f32) (r : Fin 3136) (ci : Fin 128) :
    shapeCast S3136x128 (shapeCast S56x56x128 v shapeCasts_S1x56x56x128_S56x56x128) shapeCasts_S56x56x128_S3136x128 (ix2 r ci)
      = v (ix4 (0 : Fin 1) ⟨r.val / 56, by have := r.isLt; omega⟩ ⟨r.val % 56, by omega⟩ ci) := by
  refine (shapeCast_apply _ _ (ix2 r ci)
    (ix3 (⟨r.val / 56, by have := r.isLt; omega⟩ : Fin 56) (⟨r.val % 56, by omega⟩ : Fin 56) ci) ?_).trans ?_
  · rw [Shape.rowMajor_val_three, Shape.rowMajor_val_two]
    show (r.val / 56 * 56 + r.val % 56) * 128 + ci.val = r.val * 128 + ci.val
    omega
  · exact shapeCast_1abc_abc_apply _ _ _ _ _

/-- The weight slice [1, 128, 256] cast to the matrix [128, 256] reads, at (ci, co), the slice at (0, ci, co). -/
theorem wt_apply (u : Vec Ideal S1x128x256 .f32) (ci : Fin 128) (co : Fin 256) :
    shapeCast S128x256 u shapeCasts_S1x128x256_S128x256 (ix2 ci co) = u (ix3 (0 : Fin 1) ci co) :=
  shapeCast_1ab_ab_apply _ _ _ _

/-- One tap over any window v and weight slice u: when v at (0, h, w, ci) is the framed activation at
    (h + i, w + j, ci) and u at (0, ci, co) is the weight W[i, j, ci, co], the window's matrix times the slice's matrix
    into a zero accumulator is, at (r, co), the sum over the input channels ci of v[r / 56, r % 56, ci] · u[ci, co],
    which is tap (i, j) of the convolution term by term. -/
theorem tap_apply (v : Vec Ideal S1x56x56x128 .f32) (u : Vec Ideal S1x128x256 .f32)
    (X : Cert.Spec.SX.Idx → EReal) (W : Cert.Spec.SW.Idx → EReal) (b : Fin 32) (i j : Fin 3)
    (hv : ∀ (h w : Fin 56) (ci : Fin 128),
      v (ix4 (0 : Fin 1) h w ci) = Cert.Spec.xpad X b (h.val + i.val) (w.val + j.val) ci)
    (hu : ∀ (ci : Fin 128) (co : Fin 256), u (ix3 (0 : Fin 1) ci co) = W (ix4 i j ci co))
    (r : Fin 3136) (co : Fin 256) :
    matmul (F := Ideal) dot_S3136x128_S128x256_S3136x256_1_0_0_1_n_n none
        (shapeCast S3136x128 (shapeCast S56x56x128 v shapeCasts_S1x56x56x128_S56x56x128) shapeCasts_S56x56x128_S3136x128 :
          FVec Ideal S3136x128 .f32)
        (shapeCast S128x256 u shapeCasts_S1x128x256_S128x256 : FVec Ideal S128x256 .f32)
        (constant S3136x256 .f32 0x00000000#32) (ix2 r co)
      = Cert.Spec.tap X W b r co i j := by
  refine (Cert.PlainDot.matmul_zero_apply plain_dot rfl rfl none _ _ r co).trans ?_
  unfold Cert.Spec.tap
  refine Finset.sum_congr rfl fun ci _ => ?_
  rw [win_apply, wt_apply, hv, hu]

/-- A load of the framed block [1, 58, 58, 128] through the unit-stride rectangle of size [1, 56, 56, 128] at offsets
    (0, i, j, 0) reads, at (0, h, w, ci), the block at (0, h + i, w + j, ci). -/
theorem ld_win (x0 : Vec Ideal S1x58x58x128 .f32) (i j : ℕ) (hi : i < 3) (hj : j < 3)
    (inb : ∀ a, (![0, i, j, 0] : Fin 4 → ℕ) a + S1x56x56x128.size a ≤ S1x58x58x128.size a)
    (h w : Fin 56) (ci : Fin 128) :
    View.ld x0 (Rect.unit (s := S1x58x58x128) ![0, i, j, 0] S1x56x56x128.size inb) (ix4 (0 : Fin 1) h w ci)
      = x0 (ix4 (0 : Fin 1) (⟨h.val + i, by omega⟩ : Fin 58) (⟨w.val + j, by omega⟩ : Fin 58) ci) := by
  refine congrArg x0 (funext fun a => Fin.ext ?_)
  match a with
  | ⟨0, _⟩ => rfl
  | ⟨1, _⟩ => show i + 1 * h.val = h.val + i; omega
  | ⟨2, _⟩ => show j + 1 * w.val = w.val + j; omega
  | ⟨3, _⟩ => show 0 + 1 * ci.val = ci.val; omega

/-- A load of the weights [9, 128, 256] through the unit-stride rectangle of size [1, 128, 256] at offsets (n, 0, 0)
    reads, at (0, ci, co), slice n at (ci, co). -/
theorem ld_wt (x1 : Vec Ideal S9x128x256 .f32) (n : ℕ) (hn : n < 9)
    (inb : ∀ a, (![n, 0, 0] : Fin 3 → ℕ) a + S1x128x256.size a ≤ S9x128x256.size a)
    (ci : Fin 128) (co : Fin 256) :
    View.ld x1 (Rect.unit (s := S9x128x256) ![n, 0, 0] S1x128x256.size inb) (ix3 (0 : Fin 1) ci co)
      = x1 (ix3 (⟨n, hn⟩ : Fin 9) ci co) := by
  refine congrArg x1 (funext fun a => Fin.ext ?_)
  match a with
  | ⟨0, _⟩ => show n + 1 * 0 = n; omega
  | ⟨1, _⟩ => show 0 + 1 * ci.val = ci.val; omega
  | ⟨2, _⟩ => show 0 + 1 * co.val = co.val; omega

/-- One tap of the body: the window loaded at offsets (0, i, j, 0) of the framed block x0 against the weight slice
    loaded at 3·i + j of x1, their matrix product read at (r, co), is tap (i, j) of the convolution — the loaded window
    at (0, h, w, ci) is x0 at (0, h + i, w + j, ci), the framed activation there, and the loaded slice at (0, ci, co)
    is x1 at (3·i + j, ci, co), the weight W[i, j, ci, co]. -/
theorem tap_ld (x0 : Vec Ideal S1x58x58x128 .f32) (x1 : Vec Ideal S9x128x256 .f32)
    (X : Cert.Spec.SX.Idx → EReal) (W : Cert.Spec.SW.Idx → EReal) (b : Fin 32)
    (hx : ∀ (hh ww : Fin 58) (ci : Fin 128), x0 (ix4 0 hh ww ci) = Cert.Spec.xpad X b hh.val ww.val ci)
    (hw : ∀ (i j : Fin 3) (ci : Fin 128) (co : Fin 256),
      x1 (ix3 ⟨i.val * 3 + j.val, by have := i.isLt; have := j.isLt; omega⟩ ci co) = W (ix4 i j ci co))
    (i j : Fin 3)
    (inb0 : ∀ a, (![0, i.val, j.val, 0] : Fin 4 → ℕ) a + S1x56x56x128.size a ≤ S1x58x58x128.size a)
    (inb1 : ∀ a, (![i.val * 3 + j.val, 0, 0] : Fin 3 → ℕ) a + S1x128x256.size a ≤ S9x128x256.size a)
    (r : Fin 3136) (co : Fin 256) :
    matmul (F := Ideal) dot_S3136x128_S128x256_S3136x256_1_0_0_1_n_n none
        (shapeCast S3136x128 (shapeCast S56x56x128
          (View.ld x0 (Rect.unit (s := S1x58x58x128) ![0, i.val, j.val, 0] S1x56x56x128.size inb0))
          shapeCasts_S1x56x56x128_S56x56x128) shapeCasts_S56x56x128_S3136x128 : FVec Ideal S3136x128 .f32)
        (shapeCast S128x256
          (View.ld x1 (Rect.unit (s := S9x128x256) ![i.val * 3 + j.val, 0, 0] S1x128x256.size inb1))
          shapeCasts_S1x128x256_S128x256 : FVec Ideal S128x256 .f32)
        (constant S3136x256 .f32 0x00000000#32) (ix2 r co)
      = Cert.Spec.tap X W b r co i j :=
  tap_apply _ _ X W b i j
    (fun h w ci => (ld_win x0 i.val j.val i.isLt j.isLt inb0 h w ci).trans (hx _ _ ci))
    (fun ci co => (ld_wt x1 (i.val * 3 + j.val) (by have := i.isLt; have := j.isLt; omega) inb1 ci co).trans (hw i j ci co))
    r co

/-- The body's accumulator at an entry is the convolution: when the loaded block x0 is image b of the activation X
    framed by zeros and the loaded array x1 is the weights W with its slices numbered 3·i + j, the nine per-tap
    matrix products added from the left are, at (r, co), the sum of the nine taps. -/
theorem acc_apply (x0 : Vec Ideal S1x58x58x128 .f32) (x1 : Vec Ideal S9x128x256 .f32)
    (X : Cert.Spec.SX.Idx → EReal) (W : Cert.Spec.SW.Idx → EReal) (b : Fin 32)
    (hx : ∀ (hh ww : Fin 58) (ci : Fin 128), x0 (ix4 0 hh ww ci) = Cert.Spec.xpad X b hh.val ww.val ci)
    (hw : ∀ (i j : Fin 3) (ci : Fin 128) (co : Fin 256),
      x1 (ix3 ⟨i.val * 3 + j.val, by have := i.isLt; have := j.isLt; omega⟩ ci co) = W (ix4 i j ci co))
    (r : Fin 3136) (co : Fin 256) :
    accOf x0 x1 (ix2 r co) = Cert.Spec.conv X W b r co := by
  -- the convolution is its nine taps added from the left; each tap is one of the body's nine matrix products
  -- (the window at offsets (0, i, j, 0) against slice 3·i + j), and the body adds them from the left in the same order
  unfold Cert.Spec.conv
  rw [← tap_ld x0 x1 X W b hx hw 0 0 inb_S1x58x58x128_S1x56x56x128_0_0_0_0 inb_S9x128x256_S1x128x256_0_0_0 r co,
    ← tap_ld x0 x1 X W b hx hw 0 1 inb_S1x58x58x128_S1x56x56x128_0_0_1_0 inb_S9x128x256_S1x128x256_1_0_0 r co,
    ← tap_ld x0 x1 X W b hx hw 0 2 inb_S1x58x58x128_S1x56x56x128_0_0_2_0 inb_S9x128x256_S1x128x256_2_0_0 r co,
    ← tap_ld x0 x1 X W b hx hw 1 0 inb_S1x58x58x128_S1x56x56x128_0_1_0_0 inb_S9x128x256_S1x128x256_3_0_0 r co,
    ← tap_ld x0 x1 X W b hx hw 1 1 inb_S1x58x58x128_S1x56x56x128_0_1_1_0 inb_S9x128x256_S1x128x256_4_0_0 r co,
    ← tap_ld x0 x1 X W b hx hw 1 2 inb_S1x58x58x128_S1x56x56x128_0_1_2_0 inb_S9x128x256_S1x128x256_5_0_0 r co,
    ← tap_ld x0 x1 X W b hx hw 2 0 inb_S1x58x58x128_S1x56x56x128_0_2_0_0 inb_S9x128x256_S1x128x256_6_0_0 r co,
    ← tap_ld x0 x1 X W b hx hw 2 1 inb_S1x58x58x128_S1x56x56x128_0_2_1_0 inb_S9x128x256_S1x128x256_7_0_0 r co,
    ← tap_ld x0 x1 X W b hx hw 2 2 inb_S1x58x58x128_S1x56x56x128_0_2_2_0 inb_S9x128x256_S1x128x256_8_0_0 r co]
  rfl

end Cert.ReferenceIdeal.Conv

end
-- ==== Proof.RValue.lean ====
import proofs.«172489_g2000705972228531_pallasbulk_146_4_alg».proof.Proof.Gen.ReferenceIdeal.Frame
import proofs.«172489_g2000705972228531_pallasbulk_146_4_alg».proof.Proof.Spec
import proofs.«172489_g2000705972228531_pallasbulk_146_4_alg».proof.Proof.Spec2
import proofs.«172489_g2000705972228531_pallasbulk_146_4_alg».proof.Proof.RHost
import proofs.«172489_g2000705972228531_pallasbulk_146_4_alg».proof.Proof.RRegion0
import proofs.«172489_g2000705972228531_pallasbulk_146_4_alg».proof.Proof.RRegion1
import proofs.«172489_g2000705972228531_pallasbulk_146_4_alg».proof.Proof.RConv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Value

open Idealize.ShloMosaic Idealize.ShloMosaic.ValueIdx Idealize.ShloMosaic.TcCoe Idealize.SL.Sem
open Cert.ReferenceIdeal Cert.ReferenceIdeal.Gen

open Cert.ReferenceIdeal.Host

/- The program's result array as one function of its four arguments: the arrays named stage by stage — the
   accumulator and its statistics after the first launch, the scale and shift rows, the output of the second launch,
   and its re-layout — each at the specification's function of the channel-minor activation and the weights. The
   pre-normalisation and output arrays are flat here: row 3136·b + r is pixel r of image b. -/

variable (m : (ℓ : Loc nD τ sig) → Buf (Elt Ideal) ℓ) (ρ : Dev nD → PrngReg)

/-- The channel-minor activation of the launch memory. -/
abbrev X (c : Dev nD) : Cert.Spec.SX.Idx → EReal := xT (m ((c : Thread nD τ).loc main_arg0))
/-- The 4-axis weights of the launch memory. -/
abbrev Wt (c : Dev nD) : Cert.Spec.SW.Idx → EReal := wT (m ((c : Thread nD τ).loc main_arg1))
/-- The statistics array, as the specification's. -/
abbrev St (c : Dev nD) : FVec Ideal S32x2x256 .f32 := Cert.Spec.stats (X m c) (Wt m c)
/-- The scale row. -/
abbrev Sc (c : Dev nD) : FVec Ideal S1x256 .f32 := foldScale (St m c) (m ((c : Thread nD τ).loc main_arg2))
/-- The shift row. -/
abbrev Sh (c : Dev nD) : FVec Ideal S1x256 .f32 :=
  foldShift (St m c) (m ((c : Thread nD τ).loc main_arg2)) (m ((c : Thread nD τ).loc main_arg3))

/-- The flat row of pixel r of image b. -/
def row (b : Fin 32) (r : Fin 3136) : Fin 100352 := ⟨b.val * 3136 + r.val, by have := b.isLt; have := r.isLt; omega⟩

/-- Image b's accumulator at (r, co) is the convolution. -/
theorem acc_eq (c : Dev nD) (b : Fin 32) (r : Fin 3136) (co : Fin 256) :
    Region0.acc (V8 m ρ) c b (ix2 r co) = Cert.Spec.conv (X m c) (Wt m c) b r co := by
  unfold Region0.acc
  refine Conv.acc_apply _ _ (X m c) (Wt m c) b (fun hh ww ci => ?_) (fun i j ci co => ?_) r co
  · show V8 m ρ c main_v1 (ix4 b hh ww ci) = _
    rw [v1_eq]
    exact xP_apply _ b hh ww ci
  · show V8 m ρ c main_v4 (ix3 ⟨i.val * 3 + j.val, _⟩ ci co) = _
    rw [v4_eq]
    exact w9_apply _ i j ci co

/-- The pre-normalisation array after the first launch. -/
theorem y_apply (c : Dev nD) (b : Fin 32) (r : Fin 3136) (co : Fin 256) :
    V9 m ρ c main_v7_0 (ix2 (row b r) co) = Cert.Spec.conv (X m c) (Wt m c) b r co := by
  have e : V9 m ρ c main_v7_0 = (dat0 (V8 m ρ) c).arrAt 2 cfg0.N := W9_arr m ρ c 2
  rw [e, Region0.arr_y]
  have key : ∀ (b' : Fin 32) (r' : Fin 3136), b' = b → r' = r →
      Region0.acc (V8 m ρ) c b' (ix2 r' co) = Cert.Spec.conv (X m c) (Wt m c) b r co := by
    rintro _ _ rfl rfl; exact acc_eq m ρ c _ _ co
  have hb := b.isLt
  have hr := r.isLt
  exact key _ _ (Fin.ext (by show (b.val * 3136 + r.val) / 3136 = b.val; omega))
    (Fin.ext (by show (b.val * 3136 + r.val) % 3136 = r.val; omega))

/-- The statistics array after the first launch. -/
theorem stats_eq (c : Dev nD) : V9 m ρ c main_v7_1 = St m c := by
  have e : V9 m ρ c main_v7_1 = (dat0 (V8 m ρ) c).arrAt 3 cfg0.N := W9_arr m ρ c 3
  rw [e, Region0.arr_stats]
  funext i
  obtain ⟨b, s, co, rfl⟩ : ∃ (b : Fin 32) (s : Fin 2) (co : Fin 256), i = ix3 b s co := ⟨i 0, i 1, i 2, eq_ix3 i⟩
  show (if s.val = 0 then ∑ r : Fin 3136, Region0.acc (V8 m ρ) c b (ix2 r co)
      else ∑ r : Fin 3136, Region0.acc (V8 m ρ) c b (ix2 r co) * Region0.acc (V8 m ρ) c b (ix2 r co))
    = (if s.val = 0 then ∑ r : Fin 3136, Cert.Spec.conv (X m c) (Wt m c) b r co
      else ∑ r : Fin 3136, Cert.Spec.conv (X m c) (Wt m c) b r co * Cert.Spec.conv (X m c) (Wt m c) b r co)
  simp only [acc_eq m ρ c]

/-- The scale and shift rows between the launches: the two parameter vectors pass through paddings of no width. -/
theorem scale_eq (c : Dev nD) : V10 m ρ c main_v25 = Sc m c := by
  rw [v25_eq, stats_eq, v5_at9, v5_eq, gP_eq]
theorem shift_eq (c : Dev nD) : V10 m ρ c main_v29 = Sh m c := by
  rw [v29_eq, stats_eq, v5_at9, v5_eq, gP_eq, v6_at9, v6_eq, bP_eq]

/-- The output of the second launch. -/
theorem out_apply (c : Dev nD) (b : Fin 32) (r : Fin 3136) (co : Fin 256) :
    V11 m ρ c main_v30 (ix2 (row b r) co)
      = Cert.Spec.bnhsw (Cert.Spec.conv (X m c) (Wt m c) b r co) (Sc m c (ix2 0 co)) (Sh m c (ix2 0 co)) := by
  have e : V11 m ρ c main_v30 = (dat1 (V10 m ρ) c).arrAt 3 cfg1.N := W11_arr m ρ c 3
  rw [e, Region1.arr_out]
  show Cert.Spec.bnhsw (V10 m ρ c main_v7_0 (ix2 (row b r) co)) (V10 m ρ c main_v25 (ix2 0 co)) (V10 m ρ c main_v29 (ix2 0 co)) = _
  rw [v7_0_kept, y_apply, scale_eq, shift_eq]

/-- THE RESULT ARRAY: the specification's result of the channel-minor activation, the weights and the two rows. -/
theorem result_eq (c : Dev nD) :
    W12 m ρ c (Proc.devRef .tc main_v33) = Cert.Spec.result (X m c) (Wt m c) (Sc m c) (Sh m c) := by
  rw [v33_eq]
  funext j
  obtain ⟨b, co, h, w, rfl⟩ : ∃ (b : Fin 32) (co : Fin 256) (h w : Fin 56), j = ix4 b co h w :=
    ⟨j 0, j 1, j 2, j 3, eq_ix4 j⟩
  refine (transpose_apply _ _ _ _ (ix4 b h w co) fun x => ?_).trans ?_
  · match x with
    | ⟨0, _⟩ => rfl
    | ⟨1, _⟩ => rfl
    | ⟨2, _⟩ => rfl
    | ⟨3, _⟩ => rfl
  refine (shapeCast_apply _ _ (ix4 b h w co) (ix3 b (Cert.Spec.pix h w) co) ?_).trans ?_
  · rw [Shape.rowMajor_val_three, Shape.rowMajor_val_four]
    show (b.val * 3136 + (h.val * 56 + w.val)) * 256 + co.val = ((b.val * 56 + h.val) * 56 + w.val) * 256 + co.val
    omega
  refine (shapeCast_apply _ _ (ix3 b (Cert.Spec.pix h w) co) (ix2 (row b (Cert.Spec.pix h w)) co) ?_).trans ?_
  · rw [Shape.rowMajor_val_two, Shape.rowMajor_val_three]
    rfl
  exact out_apply m ρ c b (Cert.Spec.pix h w) co

end Cert.ReferenceIdeal.Value

end
-- ==== Proof.lean ====
/-
  A 3×3 convolution (stride 1, zero padding 1) over 32 images of 56 × 56 pixels and 128 channels into 256 channels,
  training-mode batch normalisation and hard-swish, as two launches each, in two tilings.

  The kernel frames each image by zeros inside the body, lays the nine shifted windows side by side into one
  3136 × 1152 matrix and multiplies it once with the 1152 × 256 weight matrix; the reference frames the whole
  activation on the host and adds nine 3136 × 128 by 128 × 256 products, one per tap. Over the extended reals a sum
  over 1152 = 9 · 128 indices is the sum of its nine blocks of 128, in any grouping: addition there is commutative and
  associative, and nothing else is used — no distributivity, no cancellation, so the inputs' finiteness is never
  opened. Both accumulators are therefore the same convolution, entry by entry; the per-image column sums of the
  accumulator and of its square are then the same statistics array; both programs fold that array into the per-channel
  scale γ · rsqrt(max(E[y²] − E[y]², 0) + ε) and shift β − E[y] · γ · rsqrt(…) by the same host operations with the same
  literals (the reference's γ and β first pass through paddings of no width); and the second launch is the same
  entry-by-entry map z · min(6, max(0, z + 3)) · c₆ of z = y · scale + shift, tiled by image in the kernel and by 1024
  flat rows in the reference. The result arrays are re-laid to (image, channel, row, column), where entry
  (b, co, h, w) reads pixel 56·h + w of image b — flat row 3136·b + 56·h + w in the reference.

  The three frames are the programs' own; the idealisation rewrote nothing, so that conjunct is trivial.
-/
import proofs.«172489_g2000705972228531_pallasbulk_146_4_alg».proof.Defs
import proofs.«172489_g2000705972228531_pallasbulk_146_4_alg».proof.Proof.Gen.Kernel
import proofs.«172489_g2000705972228531_pallasbulk_146_4_alg».proof.Proof.Gen.Kernel.Frame
import proofs.«172489_g2000705972228531_pallasbulk_146_4_alg».proof.Proof.Gen.KernelIdeal
import proofs.«172489_g2000705972228531_pallasbulk_146_4_alg».proof.Proof.Gen.KernelIdeal.Frame
import proofs.«172489_g2000705972228531_pallasbulk_146_4_alg».proof.Proof.Gen.ReferenceIdeal
import proofs.«172489_g2000705972228531_pallasbulk_146_4_alg».proof.Proof.Gen.ReferenceIdeal.Frame
import proofs.«172489_g2000705972228531_pallasbulk_146_4_alg».proof.Proof.Gen.Pre_finite_inputs
import proofs.«172489_g2000705972228531_pallasbulk_146_4_alg».proof.Proof.KernelRun
import proofs.«172489_g2000705972228531_pallasbulk_146_4_alg».proof.Proof.RefRun
import proofs.«172489_g2000705972228531_pallasbulk_146_4_alg».proof.Proof.KValue
import proofs.«172489_g2000705972228531_pallasbulk_146_4_alg».proof.Proof.RValue
import Idealize.ShloMosaic.Adequacy
import Idealize.ShloMosaic.Init

noncomputable section

namespace Cert.Proof

open Idealize.ShloMosaic Idealize.SL.Sem

/-! ## The two programs' host operations are one function of the arrays they read -/

theorem xT_eq (a0 : FVec Ideal Cert.KernelIdeal.S32x128x56x56 .f32) :
    Cert.ReferenceIdeal.Host.xT a0 = Cert.KernelIdeal.Host.xT a0 := rfl

theorem wT_eq (a1 : FVec Ideal Cert.KernelIdeal.S256x128x3x3 .f32) :
    Cert.ReferenceIdeal.Host.wT a1 = Cert.KernelIdeal.Host.wT a1 := rfl

theorem foldScale_eq (S : FVec Ideal Cert.KernelIdeal.S32x2x256 .f32) (g : FVec Ideal Cert.KernelIdeal.S256 .f32) :
    Cert.ReferenceIdeal.Host.foldScale S g = Cert.KernelIdeal.Host.foldScale S g := rfl

theorem foldShift_eq (S : FVec Ideal Cert.KernelIdeal.S32x2x256 .f32) (g be : FVec Ideal Cert.KernelIdeal.S256 .f32) :
    Cert.ReferenceIdeal.Host.foldShift S g be = Cert.KernelIdeal.Host.foldShift S g be := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

theorem preserves : Cert.preserves_Kernel_KernelIdeal := trivial

/-- Both programs end with the result array at the specification's result of the channel-minor activation, the
    weights and the two folded rows; from memories agreeing on the four arguments those are one array. -/
theorem algebraic : Cert.algebraic_KernelIdeal_ReferenceIdeal := by
  intro m ρ m' ρ' _ hagree
  refine ⟨fun c => Cert.Spec.result (Cert.KernelIdeal.Value.X m c) (Cert.KernelIdeal.Value.Wt m c)
    (Cert.KernelIdeal.Value.Sc m c) (Cert.KernelIdeal.Value.Sh m c), ?_, ?_⟩
  · exact (θ_run Cert.KernelIdeal.defs _ _).mono
      (fun r h c => ⟨(h c).1.trans (Cert.KernelIdeal.Value.result_eq m ρ c), (h c).2⟩)
      (Cert.KernelIdeal.RunV.run_result m ρ)
  · refine (θ_run Cert.ReferenceIdeal.defs _ _).mono (fun r h c => ⟨(h c).1.trans ?_, (h c).2⟩)
      (Cert.ReferenceIdeal.RunV.run_result m' ρ')
    rw [Cert.ReferenceIdeal.Value.result_eq m' ρ' c]
    show Cert.Spec.result
        (Cert.ReferenceIdeal.Host.xT (m' ((c.tc : Thread Cert.ReferenceIdeal.nD Cert.ReferenceIdeal.τ).loc Cert.ReferenceIdeal.main_arg0)))
        (Cert.ReferenceIdeal.Host.wT (m' ((c.tc : Thread Cert.ReferenceIdeal.nD Cert.ReferenceIdeal.τ).loc Cert.ReferenceIdeal.main_arg1)))
        (Cert.ReferenceIdeal.Host.foldScale
          (Cert.Spec.stats
            (Cert.ReferenceIdeal.Host.xT (m' ((c.tc : Thread Cert.ReferenceIdeal.nD Cert.ReferenceIdeal.τ).loc Cert.ReferenceIdeal.main_arg0)))
            (Cert.ReferenceIdeal.Host.wT (m' ((c.tc : Thread Cert.ReferenceIdeal.nD Cert.ReferenceIdeal.τ).loc Cert.ReferenceIdeal.main_arg1))))
          (m' ((c.tc : Thread Cert.ReferenceIdeal.nD Cert.ReferenceIdeal.τ).loc Cert.ReferenceIdeal.main_arg2)))
        (Cert.ReferenceIdeal.Host.foldShift
          (Cert.Spec.stats
            (Cert.ReferenceIdeal.Host.xT (m' ((c.tc : Thread Cert.ReferenceIdeal.nD Cert.ReferenceIdeal.τ).loc Cert.ReferenceIdeal.main_arg0)))
            (Cert.ReferenceIdeal.Host.wT (m' ((c.tc : Thread Cert.ReferenceIdeal.nD Cert.ReferenceIdeal.τ).loc Cert.ReferenceIdeal.main_arg1))))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)))
      = _
    rw [(hagree c).1, (hagree c).2.1, (hagree c).2.2.1, (hagree c).2.2.2, xT_eq, wT_eq, foldScale_eq, foldShift_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
